-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_sqrt_d" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x1024x128 : Shape := ⟨4, ![8, 8, 1024, 128]⟩
abbrev S_ : Shape := ⟨0, ![]⟩

class Facts : Prop where
  bcast_S_S8x8x1024x128 : S_.BroadcastsInDim S8x8x1024x128 (![] : Fin 0 → Fin S8x8x1024x128.rank)
  reducesTo_S8x8x1024x128_S_d0_1_2_3 : S8x8x1024x128.ReducesTo [0, 1, 2, 3] S_
  h_S_ : 0 < S_.numel

variable [Facts]

def fn {F : FTy → Type} [FloatOps F] (main_arg0 : FVec F S8x8x1024x128 .f32) (main_arg1 : FVec F S8x8x1024x128 .f32) (main_arg2 : FVec F S8x8x1024x128 .f32) : IVec S_ 1 :=
  let main_v0 : FVec F S8x8x1024x128 .f32 := Host.absf main_arg0
  let main_cst : FVec F S_ .f32 := constant S_ .f32 0x7F800000#32
  let main_v1 : FVec F S8x8x1024x128 .f32 := broadcastInDim S8x8x1024x128 ![] bcast_S_S8x8x1024x128 main_cst
  let main_v2 : IVec S8x8x1024x128 1 := cmpf .olt main_v0 main_v1
  let main_c : IVec S_ 1 := constantI S_ 1 1#1
  let main_v3 : IVec S_ 1 := (fun x v => Host.reduce IntOp.andi x v reducesTo_S8x8x1024x128_S_d0_1_2_3 h_S_) main_v2 main_c
  let main_v4 : FVec F S8x8x1024x128 .f32 := Host.absf main_arg1
  let main_cst_0 : FVec F S_ .f32 := constant S_ .f32 0x7F800000#32
  let main_v5 : FVec F S8x8x1024x128 .f32 := broadcastInDim S8x8x1024x128 ![] bcast_S_S8x8x1024x128 main_cst_0
  let main_v6 : IVec S8x8x1024x128 1 := cmpf .olt main_v4 main_v5
  let main_c_1 : IVec S_ 1 := constantI S_ 1 1#1
  let main_v7 : IVec S_ 1 := (fun x v => Host.reduce IntOp.andi x v reducesTo_S8x8x1024x128_S_d0_1_2_3 h_S_) main_v6 main_c_1
  let main_v8 : IVec S_ 1 := andi main_v3 main_v7
  let main_v9 : FVec F S8x8x1024x128 .f32 := Host.absf main_arg2
  let main_cst_2 : FVec F S_ .f32 := constant S_ .f32 0x7F800000#32
  let main_v10 : FVec F S8x8x1024x128 .f32 := broadcastInDim S8x8x1024x128 ![] bcast_S_S8x8x1024x128 main_cst_2
  let main_v11 : IVec S8x8x1024x128 1 := cmpf .olt main_v9 main_v10
  let main_c_3 : IVec S_ 1 := constantI S_ 1 1#1
  let main_v12 : IVec S_ 1 := (fun x v => Host.reduce IntOp.andi x v reducesTo_S8x8x1024x128_S_d0_1_2_3 h_S_) main_v11 main_c_3
  let main_v13 : IVec S_ 1 := andi main_v8 main_v12
  main_v13
-- ==== Kernel.lean ====
abbrev S8x8x1024x128 : Shape := ⟨4, ![8, 8, 1024, 128]⟩
abbrev S64x1024x128 : Shape := ⟨3, ![64, 1024, 128]⟩
abbrev S64x1024x1024 : Shape := ⟨3, ![64, 1024, 1024]⟩
abbrev S1x1024x128 : Shape := ⟨3, ![1, 1024, 128]⟩
abbrev S1x1024x1024 : Shape := ⟨3, ![1, 1024, 1024]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S8x8x1024x1024 : Shape := ⟨4, ![8, 8, 1024, 1024]⟩

abbrev nBuf : Space → Nat
  | .hbm => 10
  | .vmem => 10
  | .smem => 0
  | _ => 0

abbrev bufTy : (tb : Table) → Fin (tcTables nBuf tb) → BufTy
  | .hbm, ⟨0, _⟩ => ⟨S8x8x1024x128, .f32⟩
  | .hbm, ⟨1, _⟩ => ⟨S8x8x1024x128, .f32⟩
  | .hbm, ⟨2, _⟩ => ⟨S8x8x1024x128, .f32⟩
  | .hbm, ⟨3, _⟩ => ⟨S64x1024x128, .f32⟩
  | .hbm, ⟨4, _⟩ => ⟨S64x1024x128, .f32⟩
  | .hbm, ⟨5, _⟩ => ⟨S64x1024x128, .f32⟩
  | .hbm, ⟨6, _⟩ => ⟨S64x1024x128, .f32⟩
  | .hbm, ⟨7, _⟩ => ⟨S64x1024x1024, .f32⟩
  | .hbm, ⟨8, _⟩ => ⟨S8x8x1024x128, .f32⟩
  | .hbm, ⟨9, _⟩ => ⟨S8x8x1024x1024, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x1024, .f32⟩
  | .local _ .vmem, ⟨9, _⟩ => ⟨S1x1024x1024, .f32⟩
  | _, _ => ⟨S8x8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x8x1024x128_S64x1024x128 : S8x8x1024x128.ShapeCasts S64x1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x128_S1024 : S1024x128.Reduces [1] S1024
  shapeCasts_S1024_S1024x1 : S1024.ShapeCasts S1024x1
  shapeCasts_S1024_S1x1024 : S1024.ShapeCasts S1x1024
  bitsLt_bf16_f32 : FTy.bits .bf16 < FTy.bits .f32
  transposes_S1024x128_p1_0_S128x1024 : S1024x128.Transposes [1, 0] S128x1024
  broadcasts_S1024x1_S1024x1024 : S1024x1.Broadcasts S1024x1024
  broadcasts_S1x1024_S1024x1024 : S1x1024.Broadcasts S1024x1024
  broadcasts_S1024x1_S1024x128 : S1024x1.Broadcasts S1024x128
  reduces_S1024x1024_S1024 : S1024x1024.Reduces [1] S1024
  shapeCasts_S1024x128_S1x1024x128 : S1024x128.ShapeCasts S1x1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S64x1024x128_S8x8x1024x128 : S64x1024x128.ShapeCasts S8x8x1024x128
  shapeCasts_S64x1024x1024_S8x8x1024x1024 : S64x1024x1024.ShapeCasts S8x8x1024x1024
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S64x1024x128.size a
  hwx0_0 : ∀ i : grid0.Coords, EltTy.bits .f32 = 32 ∨ (Rect.block (s := S64x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S64x1024x128.size a
  hwx0_1 : ∀ i : grid0.Coords, EltTy.bits .f32 = 32 ∨ (Rect.block (s := S64x1024x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S64x1024x128.size a
  hwx0_2 : ∀ i : grid0.Coords, EltTy.bits .f32 = 32 ∨ (Rect.block (s := S64x1024x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S64x1024x128.size a
  hwx0_3 : ∀ i : grid0.Coords, EltTy.bits .f32 = 32 ∨ (Rect.block (s := S64x1024x128) S1x1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S64x1024x1024.size a
  hwx0_4 : ∀ i : grid0.Coords, EltTy.bits .f32 = 32 ∨ (Rect.block (s := S64x1024x1024) S1x1024x1024.size (cc0_transform_4 i) (hinb0_4 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8x1024x128 : Shape := ⟨4, ![8, 8, 1024, 128]⟩
abbrev S_ : Shape := ⟨0, ![]⟩
abbrev S8x8x1024 : Shape := ⟨3, ![8, 8, 1024]⟩
abbrev S8x8x1024x1024 : Shape := ⟨4, ![8, 8, 1024, 1024]⟩
abbrev S8x8x1024x1 : Shape := ⟨4, ![8, 8, 1024, 1]⟩
abbrev S8x8x1x1024 : Shape := ⟨4, ![8, 8, 1, 1024]⟩

abbrev nBuf : Space → Nat
  | .hbm => 109
  | .vmem => 0
  | .smem => 0
  | _ => 0

abbrev bufTy : (tb : Table) → Fin (tcTables nBuf tb) → BufTy
  | .hbm, ⟨0, _⟩ => ⟨S8x8x1024x128, .f32⟩
  | .hbm, ⟨1, _⟩ => ⟨S8x8x1024x128, .f32⟩
  | .hbm, ⟨2, _⟩ => ⟨S8x8x1024x128, .f32⟩
  | .hbm, ⟨3, _⟩ => ⟨S8x8x1024x128, .f32⟩
  | .hbm, ⟨4, _⟩ => ⟨S_, .f32⟩
  | .hbm, ⟨5, _⟩ => ⟨S8x8x1024, .f32⟩
  | .hbm, ⟨6, _⟩ => ⟨S8x8x1024x128, .f32⟩
  | .hbm, ⟨7, _⟩ => ⟨S_, .f32⟩
  | .hbm, ⟨8, _⟩ => ⟨S8x8x1024, .f32⟩
  | .hbm, ⟨9, _⟩ => ⟨S8x8x1024x1024, .f32⟩
  | .hbm, ⟨10, _⟩ => ⟨S8x8x1024x1, .f32⟩
  | .hbm, ⟨11, _⟩ => ⟨S8x8x1x1024, .f32⟩
  | .hbm, ⟨12, _⟩ => ⟨S8x8x1024x1024, .f32⟩
  | .hbm, ⟨13, _⟩ => ⟨S8x8x1024x1024, .f32⟩
  | .hbm, ⟨14, _⟩ => ⟨S8x8x1024x1024, .f32⟩
  | .hbm, ⟨15, _⟩ => ⟨S_, .f32⟩
  | .hbm, ⟨16, _⟩ => ⟨S8x8x1024x1024, .f32⟩
  | .hbm, ⟨17, _⟩ => ⟨S8x8x1024x1024, .f32⟩
  | .hbm, ⟨18, _⟩ => ⟨S8x8x1024x1024, .f32⟩
  | .hbm, ⟨19, _⟩ => ⟨S_, .f32⟩
  | .hbm, ⟨20, _⟩ => ⟨S8x8x1024x1024, .f32⟩
  | .hbm, ⟨21, _⟩ => ⟨S8x8x1024x1024, .f32⟩
  | .hbm, ⟨22, _⟩ => ⟨S8x8x1024x1024, .f32⟩
  | .hbm, ⟨23, _⟩ => ⟨S8x8x1024x1024, .f32⟩
  | .hbm, ⟨24, _⟩ => ⟨S_, .f32⟩
  | .hbm, ⟨25, _⟩ => ⟨S8x8x1024x1024, .f32⟩
  | .hbm, ⟨26, _⟩ => ⟨S8x8x1024x1024, .f32⟩
  | .hbm, ⟨27, _⟩ => ⟨S8x8x1024, .f32⟩
  | .hbm, ⟨28, _⟩ => ⟨S8x8x1024x1, .f32⟩
  | .hbm, ⟨29, _⟩ => ⟨S8x8x1024x128, .f32⟩
  | .hbm, ⟨30, _⟩ => ⟨S8x8x1024x128, .f32⟩
  | .hbm, ⟨31, _⟩ => ⟨S8x8x1024, .f32⟩
  | .hbm, ⟨32, _⟩ => ⟨S8x8x1024x1, .f32⟩
  | .hbm, ⟨33, _⟩ => ⟨S8x8x1024x128, .f32⟩
  | .hbm, ⟨34, _⟩ => ⟨S8x8x1024x128, .f32⟩
  | .hbm, ⟨35, _⟩ => ⟨S8x8x1024x1024, .f32⟩
  | .hbm, ⟨36, _⟩ => ⟨S_, .f32⟩
  | .hbm, ⟨37, _⟩ => ⟨S8x8x1024x1024, .f32⟩
  | .hbm, ⟨38, _⟩ => ⟨S8x8x1024x1024, .f32⟩
  | .hbm, ⟨39, _⟩ => ⟨S_, .f32⟩
  | .hbm, ⟨40, _⟩ => ⟨S8x8x1024x1024, .f32⟩
  | .hbm, ⟨41, _⟩ => ⟨S8x8x1024x1024, .f32⟩
  | .hbm, ⟨42, _⟩ => ⟨S_, .f32⟩
  | .hbm, ⟨43, _⟩ => ⟨S8x8x1024x1024, .f32⟩
  | .hbm, ⟨44, _⟩ => ⟨S8x8x1024x1024, .f32⟩
  | .hbm, ⟨45, _⟩ => ⟨S8x8x1024x1024, .f32⟩
  | .hbm, ⟨46, _⟩ => ⟨S_, .f32⟩
  | .hbm, ⟨47, _⟩ => ⟨S8x8x1024x1024, .f32⟩
  | .hbm, ⟨48, _⟩ => ⟨S8x8x1024x1024, .f32⟩
  | .hbm, ⟨49, _⟩ => ⟨S_, .f32⟩
  | .hbm, ⟨50, _⟩ => ⟨S8x8x1024x1024, .f32⟩
  | .hbm, ⟨51, _⟩ => ⟨S8x8x1024x1024, .f32⟩
  | .hbm, ⟨52, _⟩ => ⟨S8x8x1024x1024, .f32⟩
  | .hbm, ⟨53, _⟩ => ⟨S8x8x1024x1024, .f32⟩
  | .hbm, ⟨54, _⟩ => ⟨S_, .f32⟩
  | .hbm, ⟨55, _⟩ => ⟨S8x8x1024x1024, .f32⟩
  | .hbm, ⟨56, _⟩ => ⟨S8x8x1024x1024, .f32⟩
  | .hbm, ⟨57, _⟩ => ⟨S_, .f32⟩
  | .hbm, ⟨58, _⟩ => ⟨S8x8x1024x1024, .f32⟩
  | .hbm, ⟨59, _⟩ => ⟨S8x8x1024x1024, .f32⟩
  | .hbm, ⟨60, _⟩ => ⟨S8x8x1024x128, .f32⟩
  | .hbm, ⟨61, _⟩ => ⟨S8x8x1024x128, .f32⟩
  | .hbm, ⟨62, _⟩ => ⟨S_, .f32⟩
  | .hbm, ⟨63, _⟩ => ⟨S8x8x1024x128, .f32⟩
  | .hbm, ⟨64, _⟩ => ⟨S8x8x1024x128, .f32⟩
  | .hbm, ⟨65, _⟩ => ⟨S_, .f32⟩
  | .hbm, ⟨66, _⟩ => ⟨S8x8x1024x128, .f32⟩
  | .hbm, ⟨67, _⟩ => ⟨S8x8x1024x128, .f32⟩
  | .hbm, ⟨68, _⟩ => ⟨S8x8x1024x128, .f32⟩
  | .hbm, ⟨69, _⟩ => ⟨S8x8x1024x128, .f32⟩
  | .hbm, ⟨70, _⟩ => ⟨S_, .f32⟩
  | .hbm, ⟨71, _⟩ => ⟨S8x8x1024x128, .f32⟩
  | .hbm, ⟨72, _⟩ => ⟨S8x8x1024x128, .f32⟩
  | .hbm, ⟨73, _⟩ => ⟨S_, .f32⟩
  | .hbm, ⟨74, _⟩ => ⟨S8x8x1024x128, .f32⟩
  | .hbm, ⟨75, _⟩ => ⟨S8x8x1024x128, .f32⟩
  | .hbm, ⟨76, _⟩ => ⟨S8x8x1024x1024, .f32⟩
  | .hbm, ⟨77, _⟩ => ⟨S8x8x1024x1024, .f32⟩
  | .hbm, ⟨78, _⟩ => ⟨S8x8x1024x1024, .f32⟩
  | .hbm, ⟨79, _⟩ => ⟨S_, .f32⟩
  | .hbm, ⟨80, _⟩ => ⟨S8x8x1024x128, .f32⟩
  | .hbm, ⟨81, _⟩ => ⟨S8x8x1024x128, .f32⟩
  | .hbm, ⟨82, _⟩ => ⟨S_, .f32⟩
  | .hbm, ⟨83, _⟩ => ⟨S8x8x1024x128, .f32⟩
  | .hbm, ⟨84, _⟩ => ⟨S8x8x1024x128, .f32⟩
  | .hbm, ⟨85, _⟩ => ⟨S8x8x1024x1024, .f32⟩
  | .hbm, ⟨86, _⟩ => ⟨S8x8x1024x1024, .f32⟩
  | .hbm, ⟨87, _⟩ => ⟨S8x8x1024x1024, .f32⟩
  | .hbm, ⟨88, _⟩ => ⟨S8x8x1024x1024, .f32⟩
  | .hbm, ⟨89, _⟩ => ⟨S8x8x1024x1, .f32⟩
  | .hbm, ⟨90, _⟩ => ⟨S8x8x1x1024, .f32⟩
  | .hbm, ⟨91, _⟩ => ⟨S8x8x1024x1024, .f32⟩
  | .hbm, ⟨92, _⟩ => ⟨S8x8x1024x1024, .f32⟩
  | .hbm, ⟨93, _⟩ => ⟨S8x8x1024x1024, .f32⟩
  | .hbm, ⟨94, _⟩ => ⟨S_, .f32⟩
  | .hbm, ⟨95, _⟩ => ⟨S8x8x1024x1024, .f32⟩
  | .hbm, ⟨96, _⟩ => ⟨S8x8x1024x1024, .f32⟩
  | .hbm, ⟨97, _⟩ => ⟨S8x8x1024x1024, .f32⟩
  | .hbm, ⟨98, _⟩ => ⟨S8x8x1024x1024, .f32⟩
  | .hbm, ⟨99, _⟩ => ⟨S_, .f32⟩
  | .hbm, ⟨100, _⟩ => ⟨S8x8x1024, .f32⟩
  | .hbm, ⟨101, _⟩ => ⟨S8x8x1024x1, .f32⟩
  | .hbm, ⟨102, _⟩ => ⟨S8x8x1024x1, .f32⟩
  | .hbm, ⟨103, _⟩ => ⟨S_, .f32⟩
  | .hbm, ⟨104, _⟩ => ⟨S8x8x1024x1, .f32⟩
  | .hbm, ⟨105, _⟩ => ⟨S8x8x1024x1, .f32⟩
  | .hbm, ⟨106, _⟩ => ⟨S8x8x1024x1024, .f32⟩
  | .hbm, ⟨107, _⟩ => ⟨S8x8x1024x1024, .f32⟩
  | .hbm, ⟨108, _⟩ => ⟨S8x8x1024x128, .f32⟩
  | _, _ => ⟨S8x8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_11 : Ref sig .tc := ⟨.hbm, 62, rfl⟩
abbrev main_v47 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_13 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_15 : Ref sig .tc := ⟨.hbm, 79, rfl⟩
abbrev main_v60 : Ref sig .tc := ⟨.hbm, 80, rfl⟩
abbrev main_v61 : Ref sig .tc := ⟨.hbm, 81, rfl⟩
abbrev main_cst_16 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_17 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_18 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_19 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]

class Facts₀ : Prop where
  reducesTo_S8x8x1024x128_S8x8x1024_d3 : S8x8x1024x128.ReducesTo [3] S8x8x1024
  h_S_ : 0 < S_.numel
  bcast_S8x8x1024_S8x8x1024x1_0_1_2 : S8x8x1024.BroadcastsInDim S8x8x1024x1 (![0, 1, 2] : Fin 3 → Fin S8x8x1024x1.rank)
  bcast_S8x8x1024_S8x8x1x1024_0_1_3 : S8x8x1024.BroadcastsInDim S8x8x1x1024 (![0, 1, 3] : Fin 3 → Fin S8x8x1x1024.rank)
  bcast_S8x8x1024x1_S8x8x1024x1024_0_1_2_3 : S8x8x1024x1.BroadcastsInDim S8x8x1024x1024 (![0, 1, 2, 3] : Fin 4 → Fin S8x8x1024x1024.rank)
  bcast_S8x8x1x1024_S8x8x1024x1024_0_1_2_3 : S8x8x1x1024.BroadcastsInDim S8x8x1024x1024 (![0, 1, 2, 3] : Fin 4 → Fin S8x8x1024x1024.rank)
  bcast_S_S8x8x1024x1024 : S_.BroadcastsInDim S8x8x1024x1024 (![] : Fin 0 → Fin S8x8x1024x1024.rank)
  bcast_S8x8x1024x1_S8x8x1024x128_0_1_2_3 : S8x8x1024x1.BroadcastsInDim S8x8x1024x128 (![0, 1, 2, 3] : Fin 4 → Fin S8x8x1024x128.rank)
  bcast_S_S8x8x1024x128 : S_.BroadcastsInDim S8x8x1024x128 (![] : Fin 0 → Fin S8x8x1024x128.rank)
  reducesTo_S8x8x1024x1024_S8x8x1024_d3 : S8x8x1024x1024.ReducesTo [3] S8x8x1024
  bcast_S_S8x8x1024x1 : S_.BroadcastsInDim S8x8x1024x1 (![] : Fin 0 → Fin S8x8x1024x1.rank)
  dot_S8x8x1024x128_S8x8x1024x128_S8x8x1024x1024_3_3_2_2_01_01_wf : DotDims.WF S8x8x1024x128 S8x8x1024x128 S8x8x1024x1024 [3] [3] [2] [2] [0, 1] [0, 1]
  dot_S8x8x1024x1024_S8x8x1024x128_S8x8x1024x128_3_2_2_3_01_01_wf : DotDims.WF S8x8x1024x1024 S8x8x1024x128 S8x8x1024x128 [3] [2] [2] [3] [0, 1] [0, 1]

variable [Facts₀]

def dot_S8x8x1024x128_S8x8x1024x128_S8x8x1024x1024_3_3_2_2_01_01 : DotDims S8x8x1024x128 S8x8x1024x128 S8x8x1024x1024 where
  lhsContracting := [3]
  rhsContracting := [3]
  lhsNonContracting := [2]
  rhsNonContracting := [2]
  lhsBatch := [0, 1]
  rhsBatch := [0, 1]
  wf := dot_S8x8x1024x128_S8x8x1024x128_S8x8x1024x1024_3_3_2_2_01_01_wf
def dot_S8x8x1024x1024_S8x8x1024x128_S8x8x1024x128_3_2_2_3_01_01 : DotDims S8x8x1024x1024 S8x8x1024x128 S8x8x1024x128 where
  lhsContracting := [3]
  rhsContracting := [2]
  lhsNonContracting := [2]
  rhsNonContracting := [3]
  lhsBatch := [0, 1]
  rhsBatch := [0, 1]
  wf := dot_S8x8x1024x1024_S8x8x1024x128_S8x8x1024x128_3_2_2_3_01_01_wf

class Facts : Prop extends Facts₀ where

variable [Facts]
-- ==== Proof.Spec.lean ====
/-
  One attention head of the similarity-attention layer, as plain mathematics on the extended reals.

  A head has three operands, each 1024 rows of 128 features: queries Q, keys K, values V.  With
  |x|² the squared length of a row, x̂ = x · |x|²^(-1/2) the row scaled to unit length and σ the
  logistic function applied entrywise to a unit row, the unnormalised weight of query row i on key
  row j is

      pre i j = (σ(q̂ᵢ)·σ(k̂ⱼ)) · exp(-√max(|kᵢ|² + |qⱼ|² - 2 kᵢ·qⱼ, 0) · c)
              + (128 - Σσ(q̂ᵢ) - Σσ(k̂ⱼ) + σ(q̂ᵢ)·σ(k̂ⱼ)) · exp((cos(2·π̃·√max(τ - 2 q̂ᵢ·k̂ⱼ, 0)) - 1) / D)
              + (|qᵢ|² + |kⱼ|²) · c ,

  the weights of a row are divided by the larger of their Euclidean length and a small floor, and the
  head's output row i is the weighted sum of the value rows.  The constants c, π̃, τ, the floor and
  the small integers are single-precision words kept as the exact numbers they encode; 1/D is the
  exact reciprocal 1048576/11863283 of the word D = 11863283/1048576 that encodes √128.
  (The first exponent pairs kᵢ with qⱼ: rows and columns both run over 1024 positions.)
-/
import Idealize.ShloMosaic.PureOps.Ideal
import Idealize.ShloMosaic.PureOps.Ideal.Laws
import Idealize.ShloMosaic.Lib.ValueIdx

noncomputable section

namespace Cert.SimAttn

open Idealize.ShloMosaic

/-- One operand of one head: 1024 rows of 128 extended reals. -/
abbrev Rows := Fin 1024 → Fin 128 → EReal

/-- The exact number a single-precision word encodes. -/
abbrev W (b : BitVec 32) : EReal := Ideal.ofBits .f32 b

/-- The squared length of row `i`. -/
def sq (X : Rows) (i : Fin 1024) : EReal := ∑ d : Fin 128, X i d * X i d

/-- The inner product of row `i` of `A` with row `j` of `B`. -/
def dot (A B : Rows) (i j : Fin 1024) : EReal := ∑ d : Fin 128, A i d * B j d

/-- Each row scaled by the reciprocal square root of its squared length. -/
def unit (X : Rows) : Rows := fun i d => X i d * Ideal.rsqrt (sq X i)

/-- The logistic function of the unit rows, entry by entry. -/
def sg (X : Rows) : Rows := fun i d => Ideal.logistic (unit X i d)

/-- The distance exponent: minus the Euclidean distance of key row `i` and query row `j` (by the
    Gram expansion, clipped at zero), times the word `c`. -/
def se (Q K : Rows) (i j : Fin 1024) : EReal :=
  (W 0x00000000#32 - Ideal.sqrt (max ((sq K i + sq Q j) - W 0x40000000#32 * dot K Q i j) (W 0x00000000#32)))
    * W 0x3D3504F3#32

/-- The angle fed to the periodic exponent: the word π̃ times the chord length of the unit rows. -/
def presine (Q K : Rows) (i j : Fin 1024) : EReal :=
  W 0x40490FDB#32 * Ideal.sqrt (max (W 0x4000002A#32 - W 0x40000000#32 * dot (unit Q) (unit K) i j) (W 0x00000000#32))

/-- The periodic exponent, `(cos 2x - 1) / D` with `1 / D` the exact rational. -/
def periodic (Q K : Rows) (i j : Fin 1024) : EReal :=
  (Ideal.cos (W 0x40000000#32 * presine Q K i j) - W 0x3F800000#32) * ((1048576 / 11863283 : ℝ) : EReal)

/-- The inner product of the logistic rows. -/
def t1 (Q K : Rows) (i j : Fin 1024) : EReal := dot (sg Q) (sg K) i j

/-- The inner product of the complements `1 - σ`, expanded: `128 - Σσ(q̂ᵢ) - Σσ(k̂ⱼ) + σ(q̂ᵢ)·σ(k̂ⱼ)`. -/
def t2 (Q K : Rows) (i j : Fin 1024) : EReal :=
  ((W 0x43000000#32 - ∑ d : Fin 128, sg Q i d) - ∑ d : Fin 128, sg K j d) + t1 Q K i j

/-- The unnormalised weight. -/
def pre (Q K : Rows) (i j : Fin 1024) : EReal :=
  (t1 Q K i j * Ideal.exp (se Q K i j) + t2 Q K i j * Ideal.exp (periodic Q K i j))
    + (sq Q i + sq K j) * W 0x3D3504F3#32

/-- The sum of the squared weights of row `i`. -/
def ssq (Q K : Rows) (i : Fin 1024) : EReal := ∑ j : Fin 1024, pre Q K i j * pre Q K i j

/-- The row's divisor: its Euclidean length, floored. -/
def nrm (Q K : Rows) (i : Fin 1024) : EReal := max (Ideal.sqrt (ssq Q K i)) (W 0x2B8CBCCC#32)

/-- The normalised weight. -/
def attn (Q K : Rows) (i j : Fin 1024) : EReal := Ideal.div (pre Q K i j) (nrm Q K i)

/-- The head's output: the weighted sum of the value rows. -/
def out (Q K V : Rows) (i : Fin 1024) (d : Fin 128) : EReal := ∑ j : Fin 1024, attn Q K i j * V j d

/-- Head `(b, h)` of a `[8, 8, 1024, 128]` array. -/
def hd (a : (⟨4, ![8, 8, 1024, 128]⟩ : Shape).Idx → EReal) (b h : Fin 8) : Rows :=
  fun i d => a (ValueIdx.ix4 b h i d)

/-- The one slab of a `[1, 1024, 128]` block, as rows. -/
def rows (x : (⟨3, ![1, 1024, 128]⟩ : Shape).Idx → EReal) : Rows :=
  fun i d => x (ValueIdx.ix3 (0 : Fin 1) i d)

end Cert.SimAttn

end
-- ==== Proof.KernelRows.lean ====
/-
  The kernel's per-operand values at the exact reals, entry by entry: the block read as rows, the
  squared row lengths (as a vector, as a column and as a row), the unit rows, their logistic
  images, and the distance exponent.
-/
import proofs.«423659_j82592221102312_3_alg».proof.Proof.Gen.KernelIdeal.Skeleton
import proofs.«423659_j82592221102312_3_alg».proof.Proof.Spec
import Idealize.ShloMosaic.Lib.ValueLayout
import Idealize.ShloMosaic.Lib.Pipeline.Value

noncomputable section

namespace Cert.KernelIdeal.KRows

open Cert.KernelIdeal Cert.KernelIdeal.Gen Cert.SimAttn Idealize.ShloMosaic Idealize.ShloMosaic.ValueIdx

/-! ## Equal operands give equal results -/

private theorem mul_eq {a a' b b' : EReal} (h1 : a = a') (h2 : b = b') : a * b = a' * b' := by
  rw [h1, h2]
private theorem add_eq {a a' b b' : EReal} (h1 : a = a') (h2 : b = b') : a + b = a' + b' := by
  rw [h1, h2]
private theorem sub_eq {a a' b b' : EReal} (h1 : a = a') (h2 : b = b') : a - b = a' - b' := by
  rw [h1, h2]
private theorem max_eq {a a' b b' : EReal} (h1 : a = a') (h2 : b = b') : max a b = max a' b' := by
  rw [h1, h2]

/-! ## The one-operand functions read at an index -/

/-- A square root at an index is the square root of the element. -/
private theorem sqrt_at {s : Shape} {φ : FTy} (a : FVec Ideal s φ) (i : s.Idx) :
    sqrt a i = Ideal.sqrt (a i) := rfl
/-- A reciprocal square root at an index is that of the element. -/
private theorem rsqrt_at {s : Shape} {φ : FTy} (a : FVec Ideal s φ) (i : s.Idx) :
    rsqrt a i = Ideal.rsqrt (a i) := rfl
/-- A logistic function at an index is that of the element. -/
private theorem logistic_at {s : Shape} {φ : FTy} (a : FVec Ideal s φ) (i : s.Idx) :
    logistic a i = Ideal.logistic (a i) := rfl

/-! ## Layout pieces -/

/-- A vector of length `a` cast to a column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the columns of a `[1024, 128]` block, read at row `i`. -/
private theorem rowSum_apply (src : FVec Ideal S1024x128 .f32) (acc : BitVec FTy.f32.bits)
    (h : S1024x128.Reduces [1] S1024) (hφ : FKind.Formats .f32) (hacc : acc = FKind.add.neutral .f32 hφ)
    (i : Fin 1024) :
    multiReduction (F := Ideal) .add [1] S1024 src acc h hφ hacc (ix1 i) = ∑ d : Fin 128, src (ix2 i d) := by
  refine (Ideal.multiReduction_add_single src acc h hφ hacc (ix1 i)).trans ?_
  refine Finset.sum_congr rfl fun k _ => ?_
  exact congrArg src (funext fun a => Fin.ext (by match a with | ⟨0, _⟩ => rfl | ⟨1, _⟩ => rfl))

/-! ## The product of a block with a transposed block -/

private theorem lhs_dot_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
private theorem lhs_dot_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
private theorem rhs_dot_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
private theorem rhs_dot_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product of a `[1024, 128]` block with the transpose of another, into the zero splat, read at
    `(i, j)`: the inner product of row `i` of the first with row `j` of the second. -/
private theorem gram_apply (A B : FVec Ideal S1024x128 .bf16)
    (ht : S1024x128.Transposes [1, 0] S128x1024) (i j : Fin 1024) :
    matmul (F := Ideal) dot_S1024x128_S128x1024_S1024x1024_1_0_0_1_n_n none A (transpose S128x1024 [1, 0] B ht)
        (constant S1024x1024 .f32 0x00000000#32) (ix2 i j)
      = ∑ d : Fin 128, A (ix2 i d) * B (ix2 j d) := by
  refine (Ideal.matmul_constant_zero_apply dot_S1024x128_S128x1024_S1024x1024_1_0_0_1_n_n none A _ (ix2 i j)).trans ?_
  rw [← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 i j) ((contrEquiv1 dot_S1024x128_S128x1024_S1024x1024_1_0_0_1_n_n 128 rfl rfl).symm k) = ix2 i k := funext fun a => Fin.ext (by
    match a with
    | ⟨0, _⟩ => exact lhs_dot_0 _ _
    | ⟨1, _⟩ => exact (lhs_dot_1 _ _).trans hk)
  have er : dot_S1024x128_S128x1024_S1024x1024_1_0_0_1_n_n.rhsIdx (ix2 i j) ((contrEquiv1 dot_S1024x128_S128x1024_S1024x1024_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]
  exact mul_eq rfl (transpose_ix2_apply B ht k j)

/-! ## The payloads -/

theorem pay4_apply (x : Vec Ideal S1x1024x128 .f32) (i : Fin 1024) (d : Fin 128) :
    k0_pay4 (F := Ideal) x (ix2 i d) = rows x i d := by
  unfold k0_pay4
  exact shapeCast_1ab_ab_apply x _ i d

theorem pay5_apply (x : Vec Ideal S1x1024x128 .f32) (i : Fin 1024) (d : Fin 128) :
    k0_pay5 (F := Ideal) x (ix2 i d) = rows x i d := by
  unfold k0_pay5
  exact shapeCast_1ab_ab_apply x _ i d

theorem pay10_apply (x : Vec Ideal S1x1024x128 .f32) (i : Fin 1024) (d : Fin 128) :
    k0_pay10 (F := Ideal) x (ix2 i d) = rows x i d := by
  unfold k0_pay10
  refine (truncf_apply (ψ := .bf16) (φ := .f32) _ _ _).trans ?_
  exact shapeCast_1ab_ab_apply x _ i d

theorem pay6_apply (x : Vec Ideal S1x1024x128 .f32) (i : Fin 1024) :
    k0_pay6 (F := Ideal) x (ix1 i) = sq (rows x) i := by
  unfold k0_pay6
  refine (rowSum_apply _ _ _ _ _ i).trans ?_
  show _ = ∑ d : Fin 128, rows x i d * rows x i d
  refine Finset.sum_congr rfl fun d _ => ?_
  refine (mulf_apply _ _ _).trans ?_
  exact mul_eq (pay4_apply x i d) (pay4_apply x i d)

theorem pay7_apply (x : Vec Ideal S1x1024x128 .f32) (i : Fin 1024) :
    k0_pay7 (F := Ideal) x (ix1 i) = sq (rows x) i := by
  unfold k0_pay7
  refine (rowSum_apply _ _ _ _ _ i).trans ?_
  show _ = ∑ d : Fin 128, rows x i d * rows x i d
  refine Finset.sum_congr rfl fun d _ => ?_
  refine (mulf_apply _ _ _).trans ?_
  exact mul_eq (pay5_apply x i d) (pay5_apply x i d)

theorem pay8_apply (x : Vec Ideal S1x1024x128 .f32) (i : Fin 1024) (u : Fin 1) :
    k0_pay8 (F := Ideal) x (ix2 i u) = sq (rows x) i := by
  unfold k0_pay8
  exact (shapeCast_a_a1_apply _ _ i u).trans (pay6_apply x i)

theorem pay9_apply (x : Vec Ideal S1x1024x128 .f32) (u : Fin 1) (j : Fin 1024) :
    k0_pay9 (F := Ideal) x (ix2 u j) = sq (rows x) j := by
  unfold k0_pay9
  exact (shapeCast_a_1a_apply _ _ u j).trans (pay7_apply x j)

theorem pay12_apply (x : Vec Ideal S1x1024x128 .f32) (i : Fin 1024) (d : Fin 128) :
    k0_pay12 (F := Ideal) x (ix2 i d) = unit (rows x) i d := by
  unfold k0_pay12
  refine (mulf_apply _ _ _).trans ?_
  show _ = rows x i d * Ideal.rsqrt (Cert.SimAttn.sq (rows x) i)
  refine mul_eq (pay4_apply x i d) ?_
  refine (broadcastTo_a1_ab_apply _ _ i d).trans ?_
  refine (shapeCast_a_a1_apply _ _ i 0).trans ?_
  refine (rsqrt_at _ _).trans ?_
  exact congrArg Ideal.rsqrt (pay6_apply x i)

theorem pay13_apply (x : Vec Ideal S1x1024x128 .f32) (i : Fin 1024) (d : Fin 128) :
    k0_pay13 (F := Ideal) x (ix2 i d) = unit (rows x) i d := by
  unfold k0_pay13
  refine (mulf_apply _ _ _).trans ?_
  show _ = rows x i d * Ideal.rsqrt (Cert.SimAttn.sq (rows x) i)
  refine mul_eq (pay5_apply x i d) ?_
  refine (broadcastTo_a1_ab_apply _ _ i d).trans ?_
  refine (shapeCast_a_a1_apply _ _ i 0).trans ?_
  refine (rsqrt_at _ _).trans ?_
  exact congrArg Ideal.rsqrt (pay7_apply x i)

theorem pay14_apply (x : Vec Ideal S1x1024x128 .f32) (i : Fin 1024) (d : Fin 128) :
    k0_pay14 (F := Ideal) x (ix2 i d) = sg (rows x) i d := by
  unfold k0_pay14
  refine (logistic_at _ _).trans ?_
  exact congrArg Ideal.logistic (pay12_apply x i d)

theorem pay15_apply (x : Vec Ideal S1x1024x128 .f32) (i : Fin 1024) (d : Fin 128) :
    k0_pay15 (F := Ideal) x (ix2 i d) = sg (rows x) i d := by
  unfold k0_pay15
  refine (logistic_at _ _).trans ?_
  exact congrArg Ideal.logistic (pay13_apply x i d)

/-- The distance exponent: `x0` is the query block, `x1` the key block. -/
theorem pay11_apply (x0 x1 : Vec Ideal S1x1024x128 .f32) (i j : Fin 1024) :
    k0_pay11 (F := Ideal) x0 x1 (ix2 i j) = se (rows x0) (rows x1) i j := by
  unfold k0_pay11
  refine (mulf_apply _ _ _).trans ?_
  show _ = (W 0x00000000#32 - Ideal.sqrt (max ((Cert.SimAttn.sq (rows x1) i + Cert.SimAttn.sq (rows x0) j)
      - W 0x40000000#32 * Cert.SimAttn.dot (rows x1) (rows x0) i j) (W 0x00000000#32))) * W 0x3D3504F3#32
  refine mul_eq ?_ rfl
  refine (subf_apply _ _ _).trans ?_
  refine sub_eq rfl ?_
  refine (sqrt_at _ _).trans ?_
  refine congrArg Ideal.sqrt ?_
  refine (maximumf_apply _ _ _).trans ?_
  refine max_eq ?_ rfl
  refine (subf_apply _ _ _).trans ?_
  refine sub_eq ?_ ?_
  · refine (addf_apply _ _ _).trans ?_
    refine add_eq ?_ ?_
    · refine (broadcastTo_a1_ab_apply _ _ i j).trans ?_
      exact (shapeCast_a_a1_apply _ _ i 0).trans (pay7_apply x1 i)
    · refine (broadcastTo_1b_ab_apply _ _ i j).trans ?_
      exact (shapeCast_a_1a_apply _ _ 0 j).trans (pay6_apply x0 j)
  · refine (mulf_apply _ _ _).trans ?_
    refine mul_eq rfl ?_
    refine (gram_apply _ _ _ i j).trans ?_
    show _ = ∑ d : Fin 128, rows x1 i d * rows x0 j d
    refine Finset.sum_congr rfl fun d _ => ?_
    exact mul_eq ((truncf_apply (ψ := .bf16) (φ := .f32) _ _ _).trans (pay5_apply x1 i d))
      ((truncf_apply (ψ := .bf16) (φ := .f32) _ _ _).trans (pay4_apply x0 j d))

end Cert.KernelIdeal.KRows

end
-- ==== Proof.KernelWeights.lean ====
/-
  The kernel's weight matrix at the exact reals, entry by entry, from what its operands hold: the
  unnormalised weights, the sums of their squares along a row, the normalised weights, and the
  output rows.
-/
import proofs.«423659_j82592221102312_3_alg».proof.Proof.Gen.KernelIdeal.Skeleton
import proofs.«423659_j82592221102312_3_alg».proof.Proof.Spec
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.KWeights

open Cert.KernelIdeal Cert.KernelIdeal.Gen Cert.SimAttn Idealize.ShloMosaic Idealize.ShloMosaic.ValueIdx
/-! ## Elementwise functions read at an index -/

/-- A square root at an index is the square root of the element. -/
private theorem sqrt_at {s : Shape} {φ : FTy} (a : FVec Ideal s φ) (i : s.Idx) :
    Idealize.ShloMosaic.sqrt a i = Ideal.sqrt (a i) := rfl
/-- A cosine at an index is the cosine of the element. -/
private theorem cos_at {s : Shape} {φ : FTy} (a : FVec Ideal s φ) (i : s.Idx) :
    Idealize.ShloMosaic.cos a i = Ideal.cos (a i) := rfl
/-- An exponential at an index is the exponential of the element. -/
private theorem exp_at {s : Shape} {φ : FTy} (a : FVec Ideal s φ) (i : s.Idx) :
    Idealize.ShloMosaic.exp a i = Ideal.exp (a i) := rfl

/-! ## Layout: a vector as a column, and a column spread over the columns -/

/-- A vector of length `a` cast to a column `[a, 1]` reads, at `(i, u)`, the vector at `i`. -/
private theorem cast_a_a1 {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
private theorem bcast_a1_ab {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two row sums -/

/-- The sum along row `i` of a `[1024, 128]` vector. -/
private theorem rowsum128 (src : FVec Ideal S1024x128 .f32) (h : S1024x128.Reduces [1] S1024)
    (hφ : FKind.Formats .f32) (hacc : (0x00000000#32 : BitVec 32) = 0x00000000#32) (i : Fin 1024) :
    multiReduction (F := Ideal) .add [1] S1024 src 0x00000000#32 h hφ hacc (ix1 i) = ∑ d : Fin 128, src (ix2 i d) := by
  refine (Ideal.multiReduction_add_single src _ h hφ hacc (ix1 i)).trans ?_
  refine Finset.sum_congr rfl fun k _ => ?_
  exact congrArg src (funext fun a => Fin.ext (by match a with | ⟨0, _⟩ => rfl | ⟨1, _⟩ => rfl))

/-- The sum along row `i` of a `[1024, 1024]` vector. -/
private theorem rowsum1024 (src : FVec Ideal S1024x1024 .f32) (h : S1024x1024.Reduces [1] S1024)
    (hφ : FKind.Formats .f32) (hacc : (0x00000000#32 : BitVec 32) = 0x00000000#32) (i : Fin 1024) :
    multiReduction (F := Ideal) .add [1] S1024 src 0x00000000#32 h hφ hacc (ix1 i) = ∑ j : Fin 1024, src (ix2 i j) := by
  refine (Ideal.multiReduction_add_single src _ h hφ hacc (ix1 i)).trans ?_
  refine Finset.sum_congr rfl fun k _ => ?_
  exact congrArg src (funext fun a => Fin.ext (by match a with | ⟨0, _⟩ => rfl | ⟨1, _⟩ => rfl))

/-! ## The product of a `[1024, 128]` by a `[128, 1024]` matrix into zero -/

/-- The left operand's row is the output's row. -/
private theorem lhsA_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
/-- The left operand's column is the contraction's coordinate. -/
private theorem lhsA_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
/-- The right operand's row is the contraction's coordinate. -/
private theorem rhsA_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
/-- The right operand's column is the output's column. -/
private theorem rhsA_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product read at `(i, j)`: the sum over `d` of the left operand at `(i, d)` times the right at `(d, j)`. -/
private theorem mmA_apply (A : FVec Ideal S1024x128 .bf16) (B : FVec Ideal S128x1024 .bf16) (i j : Fin 1024) :
    matmul dot_S1024x128_S128x1024_S1024x1024_1_0_0_1_n_n none A B (constant (F := Ideal) S1024x1024 .f32 0x00000000#32) (ix2 i j)
      = ∑ d : Fin 128, A (ix2 i d) * B (ix2 d j) := by
  refine (Ideal.matmul_constant_zero_apply dot_S1024x128_S128x1024_S1024x1024_1_0_0_1_n_n none A B (ix2 i j)).trans ?_
  rw [← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 i j) ((contrEquiv1 dot_S1024x128_S128x1024_S1024x1024_1_0_0_1_n_n 128 rfl rfl).symm k) = ix2 i k := funext fun a => Fin.ext (by
    match a with
    | ⟨0, _⟩ => exact lhsA_0 _ _
    | ⟨1, _⟩ => exact (lhsA_1 _ _).trans hk)
  have er : dot_S1024x128_S128x1024_S1024x1024_1_0_0_1_n_n.rhsIdx (ix2 i j) ((contrEquiv1 dot_S1024x128_S128x1024_S1024x1024_1_0_0_1_n_n 128 rfl rfl).symm k) = ix2 k j := funext fun a => Fin.ext (by
    match a with
    | ⟨0, _⟩ => exact (rhsA_0 _ _).trans hk
    | ⟨1, _⟩ => exact rhsA_1 _ _)
  rw [el, er]

/-- The product of one matrix's rows with another's, the second transposed: at `(i, j)` the sum over `d` of the first
    at `(i, d)` times the second at `(j, d)`. -/
private theorem gram_apply (A B : FVec Ideal S1024x128 .f32) (hb : FTy.bits .bf16 < FTy.bits .f32)
    (ht : S1024x128.Transposes [1, 0] S128x1024) (i j : Fin 1024) :
    matmul dot_S1024x128_S128x1024_S1024x1024_1_0_0_1_n_n none (truncf .bf16 A hb) (transpose S128x1024 [1, 0] (truncf .bf16 B hb) ht)
        (constant (F := Ideal) S1024x1024 .f32 0x00000000#32) (ix2 i j)
      = ∑ d : Fin 128, A (ix2 i d) * B (ix2 j d) := by
  refine (mmA_apply _ _ i j).trans ?_
  refine Finset.sum_congr rfl fun d _ => ?_
  exact congrArg (fun z => A (ix2 i d) * z) (transpose_ix2_apply (truncf .bf16 B hb) ht d j)

/-! ## The product of a `[1024, 1024]` by a `[1024, 128]` matrix into zero -/

/-- The left operand's row is the output's row. -/
private theorem lhsB_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
/-- The left operand's column is the contraction's coordinate. -/
private theorem lhsB_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
/-- The right operand's row is the contraction's coordinate. -/
private theorem rhsB_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
/-- The right operand's column is the output's column. -/
private theorem rhsB_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product read at `(i, d)`: the sum over `j` of the left operand at `(i, j)` times the right at `(j, d)`. -/
private theorem mmB_apply (A : FVec Ideal S1024x1024 .bf16) (B : FVec Ideal S1024x128 .bf16) (i : Fin 1024) (d : Fin 128) :
    matmul dot_S1024x1024_S1024x128_S1024x128_1_0_0_1_n_n none A B (constant (F := Ideal) S1024x128 .f32 0x00000000#32) (ix2 i d)
      = ∑ j : Fin 1024, A (ix2 i j) * B (ix2 j d) := by
  refine (Ideal.matmul_constant_zero_apply dot_S1024x1024_S1024x128_S1024x128_1_0_0_1_n_n none A B (ix2 i d)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 i d) ((contrEquiv1 dot_S1024x1024_S1024x128_S1024x128_1_0_0_1_n_n 1024 rfl rfl).symm k) = ix2 i k := funext fun a => Fin.ext (by
    match a with
    | ⟨0, _⟩ => exact lhsB_0 _ _
    | ⟨1, _⟩ => exact (lhsB_1 _ _).trans hk)
  have er : dot_S1024x1024_S1024x128_S1024x128_1_0_0_1_n_n.rhsIdx (ix2 i d) ((contrEquiv1 dot_S1024x1024_S1024x128_S1024x128_1_0_0_1_n_n 1024 rfl rfl).symm k) = ix2 k d := funext fun a => Fin.ext (by
    match a with
    | ⟨0, _⟩ => exact (rhsB_0 _ _).trans hk
    | ⟨1, _⟩ => exact rhsB_1 _ _)
  rw [el, er]

/-- The kernel's named reciprocal denotes the exact rational at the extended reals. -/
theorem inv_sqrt_d :
    Named.named (F := Ideal) Cert.KernelIdeal.κ "inv_sqrt_d" (φ := .f32) 0x3DB504F3#32 = ((1048576 / 11863283 : ℝ) : EReal) :=
  IdealRules.named_const.ideal_named_scalar _ _ _ _ rfl

section
variable (Q K : Rows)
  (v10 : FVec Ideal S1024x1 .f32) (v13 : FVec Ideal S1x1024 .f32) (v31 : FVec Ideal S1024x1024 .f32)
  (v35 v39 v40 v41 : FVec Ideal S1024x128 .f32)
  (h10 : ∀ (i : Fin 1024) (u : Fin 1), v10 (ix2 i u) = sq Q i)
  (h13 : ∀ (u : Fin 1) (j : Fin 1024), v13 (ix2 u j) = sq K j)
  (h31 : ∀ i j : Fin 1024, v31 (ix2 i j) = se Q K i j)
  (h35 : ∀ (i : Fin 1024) (d : Fin 128), v35 (ix2 i d) = unit Q i d)
  (h39 : ∀ (i : Fin 1024) (d : Fin 128), v39 (ix2 i d) = unit K i d)
  (h40 : ∀ (i : Fin 1024) (d : Fin 128), v40 (ix2 i d) = sg Q i d)
  (h41 : ∀ (i : Fin 1024) (d : Fin 128), v41 (ix2 i d) = sg K i d)
include h10 h13 h31 h35 h39 h40 h41

theorem pay16_apply (i j : Fin 1024) :
    k0_pay16 (F := Ideal) v10 v13 v31 v35 v39 v40 v41 (ix2 i j) = pre Q K i j := by
  unfold k0_pay16
  simp only [addf_apply, subf_apply, mulf_apply, maximumf_apply, broadcast_apply, sqrt_at, cos_at, exp_at,
    bcast_a1_ab, broadcastTo_1b_ab_apply, cast_a_a1, shapeCast_a_1a_apply, h10, h13, h31, inv_sqrt_d]
  rw [rowsum128, rowsum128, gram_apply, gram_apply]
  simp only [h35, h39, h40, h41]
  rfl

theorem pay17_apply (i : Fin 1024) :
    k0_pay17 (F := Ideal) v10 v13 v31 v35 v39 v40 v41 (ix1 i) = ssq Q K i := by
  unfold k0_pay17 ssq
  refine (rowsum1024 _ _ _ _ i).trans ?_
  refine Finset.sum_congr rfl fun j _ => ?_
  rw [mulf_apply, pay16_apply Q K v10 v13 v31 v35 v39 v40 v41 h10 h13 h31 h35 h39 h40 h41 i j]
end

section
variable (Q K : Rows) (v86 : FVec Ideal S1024x1024 .f32) (v88 : FVec Ideal S1024 .f32)
  (h86 : ∀ i j : Fin 1024, v86 (ix2 i j) = pre Q K i j)
  (h88 : ∀ i : Fin 1024, v88 (ix1 i) = ssq Q K i)
include h86 h88

theorem pay1_apply (i j : Fin 1024) : k0_pay1 (F := Ideal) v86 v88 (ix2 i j) = attn Q K i j := by
  unfold k0_pay1
  simp only [divf_apply, maximumf_apply, broadcast_apply, sqrt_at, bcast_a1_ab, cast_a_a1, h86, h88]
  rfl

theorem pay3_apply (u : Fin 1) (i j : Fin 1024) : k0_pay3 (F := Ideal) v86 v88 (ix3 u i j) = attn Q K i j := by
  unfold k0_pay3
  exact (shapeCast_ab_1ab_apply _ _ u i j).trans (pay1_apply Q K v86 v88 h86 h88 i j)

theorem pay2_apply (V : Rows) (v16 : FVec Ideal S1024x128 .bf16)
    (h16 : ∀ (j : Fin 1024) (d : Fin 128), v16 (ix2 j d) = V j d) (u : Fin 1) (i : Fin 1024) (d : Fin 128) :
    k0_pay2 (F := Ideal) v16 v86 v88 (ix3 u i d) = out Q K V i d := by
  unfold k0_pay2 Cert.SimAttn.out
  refine (shapeCast_ab_1ab_apply _ _ u i d).trans ?_
  refine (mmB_apply _ _ i d).trans ?_
  refine Finset.sum_congr rfl fun j _ => ?_
  rw [truncf_apply, pay1_apply Q K v86 v88 h86 h88 i j, h16]
end

end Cert.KernelIdeal.KWeights

end
-- ==== Proof.KernelBlock.lean ====
/-
  One grid point of the kernel at the exact reals: what the body leaves in its two output blocks,
  entry by entry, is the head's normalised weights and the head's output rows of the three input
  blocks read as rows.
-/
import proofs.«423659_j82592221102312_3_alg».proof.Proof.Gen.KernelIdeal.Frame
import proofs.«423659_j82592221102312_3_alg».proof.Proof.KernelRows
import proofs.«423659_j82592221102312_3_alg».proof.Proof.KernelWeights
import proofs.«423659_j82592221102312_3_alg».proof.Proof.Spec
import Idealize.ShloMosaic.Lib.Pipeline.Value

noncomputable section

namespace Cert.KernelIdeal.KBlock

open Cert.KernelIdeal Cert.KernelIdeal.Gen Cert.KernelIdeal.KRows Cert.KernelIdeal.KWeights Cert.SimAttn
open Idealize.ShloMosaic Idealize.ShloMosaic.ValueIdx

theorem hz3 : (![0, 0, 0] : Fin 3 → Nat) = fun _ => 0 := funext fun a => by fin_cases a <;> rfl

section
variable (x0 x1 x2 : Vec Ideal S1x1024x128 .f32)

/-- The unnormalised weights of the blocks' head. -/
theorem pre_blk (i j : Fin 1024) :
    k0_pay16 (F := Ideal) (k0_pay8 x0) (k0_pay9 x1) (k0_pay11 x0 x1) (k0_pay12 x0) (k0_pay13 x1) (k0_pay14 x0) (k0_pay15 x1) (ix2 i j)
      = pre (rows x0) (rows x1) i j :=
  pay16_apply (rows x0) (rows x1) _ _ _ _ _ _ _ (pay8_apply x0) (pay9_apply x1) (pay11_apply x0 x1) (pay12_apply x0) (pay13_apply x1)
    (pay14_apply x0) (pay15_apply x1) i j

/-- Their squares summed along a row. -/
theorem ssq_blk (i : Fin 1024) :
    k0_pay17 (F := Ideal) (k0_pay8 x0) (k0_pay9 x1) (k0_pay11 x0 x1) (k0_pay12 x0) (k0_pay13 x1) (k0_pay14 x0) (k0_pay15 x1) (ix1 i)
      = ssq (rows x0) (rows x1) i :=
  pay17_apply (rows x0) (rows x1) _ _ _ _ _ _ _ (pay8_apply x0) (pay9_apply x1) (pay11_apply x0 x1) (pay12_apply x0) (pay13_apply x1)
    (pay14_apply x0) (pay15_apply x1) i

/-- The weights block after the body: the head's normalised weights. -/
theorem out0_4_apply (u : Fin 1) (i j : Fin 1024) :
    out0_4 (F := Ideal) x0 x1 x2 (ix3 u i j) = attn (rows x0) (rows x1) i j := by
  unfold out0_4
  rw [View.canon_unit_zero hz3]
  simp only [View.ld_unit_zero (S := S1x1024x128) hz3]
  exact pay3_apply (rows x0) (rows x1) _ _ (pre_blk x0 x1) (ssq_blk x0 x1) u i j

/-- The output block after the body: the head's output rows. -/
theorem out0_3_apply (u : Fin 1) (i : Fin 1024) (d : Fin 128) :
    out0_3 (F := Ideal) x0 x1 x2 (ix3 u i d) = out (rows x0) (rows x1) (rows x2) i d := by
  unfold out0_3
  rw [View.canon_unit_zero hz3]
  simp only [View.ld_unit_zero (S := S1x1024x128) hz3]
  exact pay2_apply (rows x0) (rows x1) _ _ (pre_blk x0 x1) (ssq_blk x0 x1) (rows x2) _ (pay10_apply x2) u i d
end

end Cert.KernelIdeal.KBlock

end
-- ==== Proof.KernelRun.lean ====
/-
  The kernel's run at the exact reals, read back as whole arrays.

  The program reshapes each [8, 8, 1024, 128] operand to 64 heads, runs one grid point per head, and
  reshapes the two [64, …] results back.  Head t = 8·b + h of the reshaped operand is head (b, h) of
  the operand; grid point t reads block t of each operand and writes block t of each result, and the
  64 blocks cover the results.  So the weights array ends at the head's normalised weights and the
  output array at the head's output rows, at every (b, h).
-/
import proofs.«423659_j82592221102312_3_alg».proof.Proof.Gen.KernelIdeal.Frame
import proofs.«423659_j82592221102312_3_alg».proof.Proof.KernelBlock
import proofs.«423659_j82592221102312_3_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.KBlock Cert.SimAttn
open Idealize.ShloMosaic.ValueIdx

variable (m : (ℓ : Loc nD τ sig) → Buf (Elt Ideal) ℓ) (ρ : Dev nD → PrngReg)

/-! ## The arrays the run ends at -/

/-- Head `t` of a `[64, 1024, 128]` array. -/
def hd64 (A : S64x1024x128.Idx → EReal) (t : Fin 64) : Rows := fun i d => A (ix3 t i d)

/-- The `[64, 1024, 1024]` weights of 64 heads. -/
def attn64 (A0 A1 : S64x1024x128.Idx → EReal) : S64x1024x1024.Idx → EReal := fun y =>
  attn (hd64 A0 ⟨(y 0).val, (y 0).isLt⟩) (hd64 A1 ⟨(y 0).val, (y 0).isLt⟩) ⟨(y 1).val, (y 1).isLt⟩ ⟨(y 2).val, (y 2).isLt⟩

/-- The `[64, 1024, 128]` outputs of 64 heads. -/
def out64 (A0 A1 A2 : S64x1024x128.Idx → EReal) : S64x1024x128.Idx → EReal := fun y =>
  out (hd64 A0 ⟨(y 0).val, (y 0).isLt⟩) (hd64 A1 ⟨(y 0).val, (y 0).isLt⟩) (hd64 A2 ⟨(y 0).val, (y 0).isLt⟩)
    ⟨(y 1).val, (y 1).isLt⟩ ⟨(y 2).val, (y 2).isLt⟩

/-- The `[8, 8, 1024, 1024]` weights, head by head. -/
def attnArr (a0 a1 : S8x8x1024x128.Idx → EReal) : S8x8x1024x1024.Idx → EReal := fun y =>
  attn (hd a0 ⟨(y 0).val, (y 0).isLt⟩ ⟨(y 1).val, (y 1).isLt⟩) (hd a1 ⟨(y 0).val, (y 0).isLt⟩ ⟨(y 1).val, (y 1).isLt⟩)
    ⟨(y 2).val, (y 2).isLt⟩ ⟨(y 3).val, (y 3).isLt⟩

/-- The `[8, 8, 1024, 128]` outputs, head by head. -/
def outArr (a0 a1 a2 : S8x8x1024x128.Idx → EReal) : S8x8x1024x128.Idx → EReal := fun y =>
  out (hd a0 ⟨(y 0).val, (y 0).isLt⟩ ⟨(y 1).val, (y 1).isLt⟩) (hd a1 ⟨(y 0).val, (y 0).isLt⟩ ⟨(y 1).val, (y 1).isLt⟩)
    (hd a2 ⟨(y 0).val, (y 0).isLt⟩ ⟨(y 1).val, (y 1).isLt⟩) ⟨(y 2).val, (y 2).isLt⟩ ⟨(y 3).val, (y 3).isLt⟩

/-! ## Sixty-four heads are eight by eight -/

/-- Head `8 b + h` of the reshaped operand is head `(b, h)` of the operand. -/
theorem hd64_reshape (a : S8x8x1024x128.Idx → EReal) (hc : S8x8x1024x128.ShapeCasts S64x1024x128) (b h : Fin 8)
    (t : Fin 64) (ht : t.val = 8 * b.val + h.val) : hd64 (shapeCast S64x1024x128 a hc) t = hd a b h := by
  funext i d
  unfold hd64 hd
  refine shapeCast_apply a hc (ix3 t i d) (ix4 b h i d) ?_
  rw [Shape.rowMajor_val_four, Shape.rowMajor_val_three]
  show ((b.val * 8 + h.val) * 1024 + i.val) * 128 + d.val = (t.val * 1024 + i.val) * 128 + d.val
  rw [ht]; omega

/-- The weights of 64 heads of the reshaped operands, reshaped back, are the weights head by head. -/
theorem attnArr_eq (a0 a1 : S8x8x1024x128.Idx → EReal) (hc : S8x8x1024x128.ShapeCasts S64x1024x128)
    (hc' : S64x1024x1024.ShapeCasts S8x8x1024x1024) :
    shapeCast S8x8x1024x1024 (attn64 (shapeCast S64x1024x128 a0 hc) (shapeCast S64x1024x128 a1 hc)) hc' = attnArr a0 a1 := by
  funext y
  obtain ⟨b, h, i, j, rfl⟩ : ∃ (b h : Fin 8) (i j : Fin 1024), y = ix4 b h i j := ⟨y 0, y 1, y 2, y 3, eq_ix4 y⟩
  have hb := b.isLt
  have hh := h.isLt
  have ht : 8 * b.val + h.val < 64 := by omega
  rw [shapeCast_apply _ hc' (ix4 b h i j) (ix3 (⟨8 * b.val + h.val, ht⟩ : Fin 64) i j) (by
    rw [Shape.rowMajor_val_three, Shape.rowMajor_val_four]
    show ((8 * b.val + h.val) * 1024 + i.val) * 1024 + j.val = ((b.val * 8 + h.val) * 1024 + i.val) * 1024 + j.val
    omega)]
  show attn (hd64 (shapeCast S64x1024x128 a0 hc) ⟨8 * b.val + h.val, ht⟩) (hd64 (shapeCast S64x1024x128 a1 hc) ⟨8 * b.val + h.val, ht⟩) i j
    = attn (hd a0 b h) (hd a1 b h) i j
  rw [hd64_reshape a0 hc b h _ rfl, hd64_reshape a1 hc b h _ rfl]

/-- The outputs of 64 heads of the reshaped operands, reshaped back, are the outputs head by head. -/
theorem outArr_eq (a0 a1 a2 : S8x8x1024x128.Idx → EReal) (hc : S8x8x1024x128.ShapeCasts S64x1024x128)
    (hc' : S64x1024x128.ShapeCasts S8x8x1024x128) :
    shapeCast S8x8x1024x128 (out64 (shapeCast S64x1024x128 a0 hc) (shapeCast S64x1024x128 a1 hc) (shapeCast S64x1024x128 a2 hc)) hc'
      = outArr a0 a1 a2 := by
  funext y
  obtain ⟨b, h, i, d, rfl⟩ : ∃ (b h : Fin 8) (i : Fin 1024) (d : Fin 128), y = ix4 b h i d := ⟨y 0, y 1, y 2, y 3, eq_ix4 y⟩
  have hb := b.isLt
  have hh := h.isLt
  have ht : 8 * b.val + h.val < 64 := by omega
  rw [shapeCast_apply _ hc' (ix4 b h i d) (ix3 (⟨8 * b.val + h.val, ht⟩ : Fin 64) i d) (by
    rw [Shape.rowMajor_val_three, Shape.rowMajor_val_four]
    show ((8 * b.val + h.val) * 1024 + i.val) * 128 + d.val = ((b.val * 8 + h.val) * 1024 + i.val) * 128 + d.val
    omega)]
  show out (hd64 (shapeCast S64x1024x128 a0 hc) ⟨8 * b.val + h.val, ht⟩) (hd64 (shapeCast S64x1024x128 a1 hc) ⟨8 * b.val + h.val, ht⟩)
      (hd64 (shapeCast S64x1024x128 a2 hc) ⟨8 * b.val + h.val, ht⟩) i d
    = out (hd a0 b h) (hd a1 b h) (hd a2 b h) i d
  rw [hd64_reshape a0 hc b h _ rfl, hd64_reshape a1 hc b h _ rfl, hd64_reshape a2 hc b h _ rfl]

/-! ## The operands as the region finds them -/

theorem V_v0 (c : Dev nD) : (V m c main_v0 : S64x1024x128.Idx → EReal)
    = shapeCast S64x1024x128 (m ((c : Thread nD τ).loc main_arg0)) shapeCasts_S8x8x1024x128_S64x1024x128 := by
  show StableHlo.after hostOps0 (fun b => m (c, b)) (Proc.devRef .tc main_v0) = _
  after_results
  rfl

theorem V_v1 (c : Dev nD) : (V m c main_v1 : S64x1024x128.Idx → EReal)
    = shapeCast S64x1024x128 (m ((c : Thread nD τ).loc main_arg1)) shapeCasts_S8x8x1024x128_S64x1024x128 := by
  show StableHlo.after hostOps0 (fun b => m (c, b)) (Proc.devRef .tc main_v1) = _
  after_results
  rfl

theorem V_v2 (c : Dev nD) : (V m c main_v2 : S64x1024x128.Idx → EReal)
    = shapeCast S64x1024x128 (m ((c : Thread nD τ).loc main_arg2)) shapeCasts_S8x8x1024x128_S64x1024x128 := by
  show StableHlo.after hostOps0 (fun b => m (c, b)) (Proc.devRef .tc main_v2) = _
  after_results
  rfl

/-! ## Grid point `t` works on head `t` -/

/-- Every window's block index at grid point `t` is `(t, 0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

theorem lt64 (t : Fin cfg0.N) : t.val < 64 := by
  have h := t.isLt
  have hN : cfg0.N = 64 := N_0
  omega

/-- The query block at point `t`, as rows, is head `t` of the reshaped query array. -/
theorem rows_iblk0 (c : Dev nD) (t : Fin cfg0.N) :
    rows (iblk m c 0 t : Vec Ideal S1x1024x128 .f32) = hd64 (V m c main_v0) ⟨t.val, lt64 t⟩ := by
  obtain ⟨⟨e0, e1, e2⟩, -⟩ := idx_facts t
  funext i d
  unfold rows hd64 iblk
  rw [View.read_apply]
  show V m c main_v0 _ = V m c main_v0 _
  congr 1
  funext a
  apply Fin.ext
  match a with
  | ⟨0, _⟩ => show win0_0.index t (0 : Fin 3) * 1 + 1 * 0 = t.val; omega
  | ⟨1, _⟩ => show win0_0.index t (1 : Fin 3) * 1024 + 1 * i.val = i.val; omega
  | ⟨2, _⟩ => show win0_0.index t (2 : Fin 3) * 128 + 1 * d.val = d.val; omega

/-- The key block likewise. -/
theorem rows_iblk1 (c : Dev nD) (t : Fin cfg0.N) :
    rows (iblk m c 1 t : Vec Ideal S1x1024x128 .f32) = hd64 (V m c main_v1) ⟨t.val, lt64 t⟩ := by
  obtain ⟨-, ⟨e0, e1, e2⟩, -⟩ := idx_facts t
  funext i d
  unfold rows hd64 iblk
  rw [View.read_apply]
  show V m c main_v1 _ = V m c main_v1 _
  congr 1
  funext a
  apply Fin.ext
  match a with
  | ⟨0, _⟩ => show win0_1.index t (0 : Fin 3) * 1 + 1 * 0 = t.val; omega
  | ⟨1, _⟩ => show win0_1.index t (1 : Fin 3) * 1024 + 1 * i.val = i.val; omega
  | ⟨2, _⟩ => show win0_1.index t (2 : Fin 3) * 128 + 1 * d.val = d.val; omega

/-- The value block likewise. -/
theorem rows_iblk2 (c : Dev nD) (t : Fin cfg0.N) :
    rows (iblk m c 2 t : Vec Ideal S1x1024x128 .f32) = hd64 (V m c main_v2) ⟨t.val, lt64 t⟩ := by
  obtain ⟨-, -, ⟨e0, e1, e2⟩, -⟩ := idx_facts t
  funext i d
  unfold rows hd64 iblk
  rw [View.read_apply]
  show V m c main_v2 _ = V m c main_v2 _
  congr 1
  funext a
  apply Fin.ext
  match a with
  | ⟨0, _⟩ => show win0_2.index t (0 : Fin 3) * 1 + 1 * 0 = t.val; omega
  | ⟨1, _⟩ => show win0_2.index t (1 : Fin 3) * 1024 + 1 * i.val = i.val; omega
  | ⟨2, _⟩ => show win0_2.index t (2 : Fin 3) * 128 + 1 * d.val = d.val; omega

/-! ## What point `t` writes back -/

/-- Block `t` of the weights of the 64 heads. -/
theorem flushed4_eq (c : Dev nD) (t : Fin cfg0.N) :
    (dats m 0 c).flushed 4 t = ((cfg0.win 4).blk t).view.read (Elt Ideal) (attn64 (V m c main_v0) (V m c main_v1)) := by
  obtain ⟨-, -, -, -, ⟨e0, e1, e2⟩⟩ := idx_facts t
  show (cfg0.win 4).cut (grid0.coords t) ((dats m 0 c).after 4 t) = _
  rw [after0_4]
  refine funext fun (y : S1x1024x1024.Idx) => ?_
  obtain ⟨u, i, j, rfl⟩ : ∃ (u : Fin 1) (i j : Fin 1024), y = ix3 u i j := ⟨y 0, y 1, y 2, eq_ix3 y⟩
  have hu : u.val = 0 := by have := u.isLt; omega
  show out0_4 (iblk m c 0 t) (iblk m c 1 t) (iblk m c 2 t) (ix3 u i j)
    = attn64 (V m c main_v0) (V m c main_v1) (((cfg0.win 4).blk t).view.emb (ix3 u i j))
  rw [out0_4_apply, rows_iblk0, rows_iblk1]
  have he : ((cfg0.win 4).blk t).view.emb (ix3 u i j) = ix3 (⟨t.val, lt64 t⟩ : Fin 64) i j := by
    funext a
    apply Fin.ext
    match a with
    | ⟨0, _⟩ => show win0_4.index t (0 : Fin 3) * 1 + 1 * u.val = t.val; omega
    | ⟨1, _⟩ => show win0_4.index t (1 : Fin 3) * 1024 + 1 * i.val = i.val; omega
    | ⟨2, _⟩ => show win0_4.index t (2 : Fin 3) * 1024 + 1 * j.val = j.val; omega
  rw [he]
  rfl

/-- Block `t` of the outputs of the 64 heads. -/
theorem flushed3_eq (c : Dev nD) (t : Fin cfg0.N) :
    (dats m 0 c).flushed 3 t
      = ((cfg0.win 3).blk t).view.read (Elt Ideal) (out64 (V m c main_v0) (V m c main_v1) (V m c main_v2)) := by
  obtain ⟨-, -, -, ⟨e0, e1, e2⟩, -⟩ := idx_facts t
  show (cfg0.win 3).cut (grid0.coords t) ((dats m 0 c).after 3 t) = _
  rw [after0_3]
  refine funext fun (y : S1x1024x128.Idx) => ?_
  obtain ⟨u, i, d, rfl⟩ : ∃ (u : Fin 1) (i : Fin 1024) (d : Fin 128), y = ix3 u i d := ⟨y 0, y 1, y 2, eq_ix3 y⟩
  have hu : u.val = 0 := by have := u.isLt; omega
  show out0_3 (iblk m c 0 t) (iblk m c 1 t) (iblk m c 2 t) (ix3 u i d)
    = out64 (V m c main_v0) (V m c main_v1) (V m c main_v2) (((cfg0.win 3).blk t).view.emb (ix3 u i d))
  rw [out0_3_apply, rows_iblk0, rows_iblk1, rows_iblk2]
  have he : ((cfg0.win 3).blk t).view.emb (ix3 u i d) = ix3 (⟨t.val, lt64 t⟩ : Fin 64) i d := by
    funext a
    apply Fin.ext
    match a with
    | ⟨0, _⟩ => show win0_3.index t (0 : Fin 3) * 1 + 1 * u.val = t.val; omega
    | ⟨1, _⟩ => show win0_3.index t (1 : Fin 3) * 1024 + 1 * i.val = i.val; omega
    | ⟨2, _⟩ => show win0_3.index t (2 : Fin 3) * 128 + 1 * d.val = d.val; omega
  rw [he]
  rfl

/-! ## The 64 blocks cover each result -/

theorem mem_blk4 (t : Fin cfg0.N) (i : S64x1024x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v3_1).slice (win0_4.rect t)).set ↔ _
  rw [View.set_slice_whole, Rect.mem_set_unit]
  exact Iff.rfl

theorem mem_blk3 (t : Fin cfg0.N) (i : S64x1024x128.Idx) :
    i ∈ ((cfg0.win 3).blk t).view.set ↔ ∀ a : Fin 3, win0_3.index t a * S1x1024x128.size a ≤ (i a).val
      ∧ (i a).val < win0_3.index t a * S1x1024x128.size a + S1x1024x128.size a := by
  show i ∈ ((View.whole main_v3_0).slice (win0_3.rect t)).set ↔ _
  rw [View.set_slice_whole, Rect.mem_set_unit]
  exact Iff.rfl

theorem cover4 (i : S64x1024x1024.Idx) :
    ∃ t : Fin cfg0.N, (cfg0.win 4).flush t = true ∧ i ∈ ((cfg0.win 4).blk t).view.set := by
  have hi0 : (i 0).val < 64 := (i 0).isLt
  have hi1 : (i 1).val < 1024 := (i 1).isLt
  have hi2 : (i 2).val < 1024 := (i 2).isLt
  have hN : cfg0.N = 64 := N_0
  obtain ⟨t, ht⟩ : ∃ t : Fin cfg0.N, t.val = (i 0).val := ⟨⟨(i 0).val, by rw [hN]; exact hi0⟩, rfl⟩
  obtain ⟨-, -, -, -, ⟨e0, e1, e2⟩⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1
              omega
  | ⟨1, _⟩ => show win0_4.index t (1 : Fin 3) * 1024 ≤ (i 1).val ∧ (i 1).val < win0_4.index t (1 : Fin 3) * 1024 + 1024
              omega
  | ⟨2, _⟩ => show win0_4.index t (2 : Fin 3) * 1024 ≤ (i 2).val ∧ (i 2).val < win0_4.index t (2 : Fin 3) * 1024 + 1024
              omega

theorem cover3 (i : S64x1024x128.Idx) :
    ∃ t : Fin cfg0.N, (cfg0.win 3).flush t = true ∧ i ∈ ((cfg0.win 3).blk t).view.set := by
  have hi0 : (i 0).val < 64 := (i 0).isLt
  have hi1 : (i 1).val < 1024 := (i 1).isLt
  have hi2 : (i 2).val < 128 := (i 2).isLt
  have hN : cfg0.N = 64 := N_0
  obtain ⟨t, ht⟩ : ∃ t : Fin cfg0.N, t.val = (i 0).val := ⟨⟨(i 0).val, by rw [hN]; exact hi0⟩, rfl⟩
  obtain ⟨-, -, -, ⟨e0, e1, e2⟩, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1
              omega
  | ⟨1, _⟩ => show win0_3.index t (1 : Fin 3) * 1024 ≤ (i 1).val ∧ (i 1).val < win0_3.index t (1 : Fin 3) * 1024 + 1024
              omega
  | ⟨2, _⟩ => show win0_3.index t (2 : Fin 3) * 128 ≤ (i 2).val ∧ (i 2).val < win0_3.index t (2 : Fin 3) * 128 + 128
              omega

/-- The weights array after the region. -/
theorem final4 (c : Dev nD) : (dats m 0 c).arrAt 4 cfg0.N = attn64 (V m c main_v0) (V m c main_v1) :=
  (dats m 0 c).arrAt_eq_of_cover 4 (attn64 (V m c main_v0) (V m c main_v1)) (fun t _ => flushed4_eq m c t) cover4

/-- The output array after the region. -/
theorem final3 (c : Dev nD) : (dats m 0 c).arrAt 3 cfg0.N = out64 (V m c main_v0) (V m c main_v1) (V m c main_v2) :=
  (dats m 0 c).arrAt_eq_of_cover 3 (out64 (V m c main_v0) (V m c main_v1) (V m c main_v2)) (fun t _ => flushed3_eq m c t) cover3

/-! ## The two reshapes after the region, and the run -/

/-- The weights result: the region's weights array reshaped. -/
theorem tail_v5 (c : Dev nD) :
    (Pipeline.afterTail₀ cfgs (dats m) 0 (V0 m) [hostOps1] c main_v5 : S8x8x1024x1024.Idx → EReal)
      = shapeCast S8x8x1024x1024 ((dats m 0 c).arrAt 4 cfg0.N) shapeCasts_S64x1024x1024_S8x8x1024x1024 := by
  unfold Pipeline.afterTail₀
  show StableHlo.after hostOps1 (Pipeline.withArrays spec0 c (V0 m c) fun w => (dats m 0 c).arrAt w cfg0.N) (Proc.devRef .tc main_v5) = _
  have h4 : Pipeline.withArrays spec0 c (V0 m c) (fun w => (dats m 0 c).arrAt w cfg0.N) (Proc.devRef .tc main_v3_1)
      = (dats m 0 c).arrAt 4 cfg0.N :=
    Pipeline.withArrays_arr spec0 launch0.win.arr_inj c (V0 m c) _ 4
  generalize Pipeline.withArrays spec0 c (V0 m c) (fun w => (dats m 0 c).arrAt w cfg0.N) = Wv at h4 ⊢
  after_results
  rw [h4]
  rfl

/-- The output result: the region's output array reshaped. -/
theorem tail_v4 (c : Dev nD) :
    (Pipeline.afterTail₀ cfgs (dats m) 0 (V0 m) [hostOps1] c main_v4 : S8x8x1024x128.Idx → EReal)
      = shapeCast S8x8x1024x128 ((dats m 0 c).arrAt 3 cfg0.N) shapeCasts_S64x1024x128_S8x8x1024x128 := by
  unfold Pipeline.afterTail₀
  show StableHlo.after hostOps1 (Pipeline.withArrays spec0 c (V0 m c) fun w => (dats m 0 c).arrAt w cfg0.N) (Proc.devRef .tc main_v4) = _
  have h3 : Pipeline.withArrays spec0 c (V0 m c) (fun w => (dats m 0 c).arrAt w cfg0.N) (Proc.devRef .tc main_v3_0)
      = (dats m 0 c).arrAt 3 cfg0.N :=
    Pipeline.withArrays_arr spec0 launch0.win.arr_inj c (V0 m c) _ 3
  generalize Pipeline.withArrays spec0 c (V0 m c) (fun w => (dats m 0 c).arrAt w cfg0.N) = Wv at h3 ⊢
  after_results
  rw [h3]
  rfl

/-- The weights result is the weights head by head of the launch arrays. -/
theorem result_v5 (c : Dev nD) :
    (Pipeline.afterTail₀ cfgs (dats m) 0 (V0 m) [hostOps1] c main_v5 : S8x8x1024x1024.Idx → EReal)
      = attnArr (m ((c : Thread nD τ).loc main_arg0)) (m ((c : Thread nD τ).loc main_arg1)) := by
  rw [tail_v5, final4, V_v0, V_v1]
  exact attnArr_eq _ _ _ _

/-- The output result is the outputs head by head of the launch arrays. -/
theorem result_v4 (c : Dev nD) :
    (Pipeline.afterTail₀ cfgs (dats m) 0 (V0 m) [hostOps1] c main_v4 : S8x8x1024x128.Idx → EReal)
      = outArr (m ((c : Thread nD τ).loc main_arg0)) (m ((c : Thread nD τ).loc main_arg1)) (m ((c : Thread nD τ).loc main_arg2)) := by
  rw [tail_v4, final3, V_v0, V_v1, V_v2]
  exact outArr_eq _ _ _ _ _

/-- The run, read: both results head by head, the arguments unchanged. -/
theorem run : θ_run defs (onTc (τ := τ) (main (F := Ideal))) ⟨m, fun _ => 0, ρ⟩ fun r => ∀ c : Dev nD,
      r.2.mem ((c.tc : Thread nD τ).loc main_v4)
        = outArr (m ((c : Thread nD τ).loc main_arg0)) (m ((c : Thread nD τ).loc main_arg1)) (m ((c : Thread nD τ).loc main_arg2))
      ∧ r.2.mem ((c.tc : Thread nD τ).loc main_v5)
        = attnArr (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_v4 m c),
     ((h c).2 main_v5 (Pipeline.mem_restRefs_of main_v5 (by decide) (by decide))).trans (result_v5 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KRun

end
-- ==== Proof.Algebra.lean ====
/-
  The laws of the extended reals that join the two ways the layer is written.

  * The small words are the numbers they spell: 0, 1, 2, -2, 128; and the word that encodes √128
    is the rational 11863283/1048576.
  * Dividing by one changes nothing; minus x is zero less x.
  * The logistic function is the quotient 1/(1 + e^(-x)) and is a real number at every extended real.
  * The half-angle identity: -2·sin²x divided by D is (cos 2x - 1) times the exact reciprocal 1/D —
    at a real x by cos 2x = 1 - 2 sin²x, at an infinite x both sides are the bottom element.
  * The inner product of the complements 1 - a and 1 - b of two real vectors of length 128 is
    128 - Σa - Σb + a·b.
-/
import proofs.«423659_j82592221102312_3_alg».proof.Proof.Spec

noncomputable section

namespace Cert.SimAttn

open Idealize.ShloMosaic

/-- The coercion of a finite sum of reals is the sum of the coercions. -/
private theorem coe_finset_sum {ι : Type} (s : Finset ι) (f : ι → ℝ) :
    ((∑ d ∈ s, f d : ℝ) : EReal) = ∑ d ∈ s, (f d : EReal) := by
  classical
  induction s using Finset.induction_on with
  | empty => rw [Finset.sum_empty, Finset.sum_empty, EReal.coe_zero]
  | insert a s ha ih => rw [Finset.sum_insert ha, Finset.sum_insert ha, EReal.coe_add, ih]

theorem W_zero : W 0x00000000#32 = 0 := by
  simp [W, Ideal.ofBits, Ideal.ieee]

theorem W_one : W 0x3F800000#32 = 1 := by
  simp [W, Ideal.ofBits, Ideal.ieee, -EReal.coe_mul]; norm_num

theorem W_two : W 0x40000000#32 = ((2 : ℝ) : EReal) := by
  simp [W, Ideal.ofBits, Ideal.ieee, -EReal.coe_mul]; norm_num

theorem W_neg_two : W 0xC0000000#32 = ((-2 : ℝ) : EReal) := by
  simp [W, Ideal.ofBits, Ideal.ieee, -EReal.coe_mul]; norm_num

theorem W_128 : W 0x43000000#32 = ((128 : ℝ) : EReal) := by
  simp [W, Ideal.ofBits, Ideal.ieee, -EReal.coe_mul]; norm_num

theorem W_sqrt_d : W 0x413504F3#32 = ((11863283 / 1048576 : ℝ) : EReal) := by
  simp [W, Ideal.ofBits, Ideal.ieee, -EReal.coe_mul]; norm_num

/-- A quotient by the word one is the dividend. -/
theorem div_W_one (x : EReal) : Ideal.div x (W 0x3F800000#32) = x := by
  rw [W_one, ← EReal.coe_one, Ideal.div_coe (one_ne_zero : (1 : ℝ) ≠ 0), div_one, EReal.coe_one, mul_one]

/-- Minus `x` is the word zero less `x`. -/
theorem neg_eq_W_zero_sub (x : EReal) : -x = W 0x00000000#32 - x := by
  rw [W_zero, zero_sub]

/-- The quotient form of the logistic function, over the word one. -/
theorem div_one_add_exp_neg (x : EReal) :
    Ideal.div (W 0x3F800000#32) (W 0x3F800000#32 + Ideal.exp (-x)) = Ideal.logistic x := by
  rw [W_one, Ideal.logistic]

/-- The logistic function takes real values only. -/
theorem logistic_real (x : EReal) : ∃ r : ℝ, Ideal.logistic x = (r : EReal) := by
  induction x using EReal.rec with
  | bot => exact ⟨0, by rw [Ideal.logistic_bot, EReal.coe_zero]⟩
  | coe r => exact ⟨(1 + Real.exp (-r))⁻¹, Ideal.logistic_coe r⟩
  | top => exact ⟨1, by rw [Ideal.logistic_top, EReal.coe_one]⟩

/-- `-2 sin² x / D = (cos 2x - 1) · (1 / D)`, the quotient by one in the sine's argument included. -/
theorem half_angle (x : EReal) :
    Ideal.div (W 0xC0000000#32 * (Ideal.sin (Ideal.div x (W 0x3F800000#32)) * Ideal.sin (Ideal.div x (W 0x3F800000#32))))
        (W 0x413504F3#32)
      = (Ideal.cos (W 0x40000000#32 * x) - W 0x3F800000#32) * ((1048576 / 11863283 : ℝ) : EReal) := by
  have hD : (11863283 / 1048576 : ℝ) ≠ 0 := by norm_num
  have hinv : (1 / (11863283 / 1048576 : ℝ)) = (1048576 / 11863283 : ℝ) := by norm_num
  have hc : (0 : ℝ) < 1048576 / 11863283 := by norm_num
  have h2 : (0 : ℝ) < 2 := by norm_num
  have hm2 : (-2 : ℝ) < 0 := by norm_num
  rw [div_W_one, W_neg_two, W_sqrt_d, W_two, W_one, Ideal.div_coe hD, hinv]
  induction x using EReal.rec with
  | bot =>
    rw [Ideal.sin_bot, EReal.bot_mul_bot, EReal.coe_mul_top_of_neg hm2, EReal.bot_mul_coe_of_pos hc,
      EReal.coe_mul_bot_of_pos h2, Ideal.cos_bot, EReal.bot_sub, EReal.bot_mul_coe_of_pos hc]
  | coe r =>
    have hL : ((-2 : ℝ) : EReal) * (Ideal.sin (r : EReal) * Ideal.sin (r : EReal)) * ((1048576 / 11863283 : ℝ) : EReal)
        = ((-2 * (Real.sin r * Real.sin r) * (1048576 / 11863283) : ℝ) : EReal) := by
      rw [Ideal.sin_coe, EReal.coe_mul, EReal.coe_mul, EReal.coe_mul]
    have hR : (Ideal.cos (((2 : ℝ) : EReal) * (r : EReal)) - 1) * ((1048576 / 11863283 : ℝ) : EReal)
        = (((Real.cos (2 * r) - 1) * (1048576 / 11863283) : ℝ) : EReal) := by
      rw [← EReal.coe_mul, Ideal.cos_coe, EReal.coe_mul, EReal.coe_sub, EReal.coe_one]
    rw [hL, hR]
    congr 1
    rw [Real.cos_two_mul_eq_one_sub]
    ring
  | top =>
    rw [Ideal.sin_top, EReal.bot_mul_bot, EReal.coe_mul_top_of_neg hm2, EReal.bot_mul_coe_of_pos hc,
      EReal.coe_mul_top_of_pos h2, Ideal.cos_top, EReal.bot_sub, EReal.bot_mul_coe_of_pos hc]

/-- `Σ (1 - a)(1 - b) = 128 - Σa - Σb + Σ ab` for real vectors of length 128. -/
theorem compl_dot (a b : Fin 128 → EReal) (ha : ∀ d, ∃ r : ℝ, a d = (r : EReal)) (hb : ∀ d, ∃ r : ℝ, b d = (r : EReal)) :
    ∑ d : Fin 128, (W 0x3F800000#32 - a d) * (W 0x3F800000#32 - b d)
      = ((W 0x43000000#32 - ∑ d : Fin 128, a d) - ∑ d : Fin 128, b d) + ∑ d : Fin 128, a d * b d := by
  choose α hα using ha
  choose β hβ using hb
  have key : (∑ d : Fin 128, (1 - α d) * (1 - β d))
      = 128 - ∑ d : Fin 128, α d - ∑ d : Fin 128, β d + ∑ d : Fin 128, α d * β d := by
    have h : ∀ d : Fin 128, (1 - α d) * (1 - β d) = 1 - α d - β d + α d * β d := fun d => by ring
    rw [Finset.sum_congr rfl (fun d _ => h d), Finset.sum_add_distrib, Finset.sum_sub_distrib,
      Finset.sum_sub_distrib, Finset.sum_const, Finset.card_univ, Fintype.card_fin]
    norm_num
  have hL : ∑ d : Fin 128, ((1 : EReal) - a d) * (1 - b d)
      = ((∑ d : Fin 128, (1 - α d) * (1 - β d) : ℝ) : EReal) := by
    rw [coe_finset_sum]
    refine Finset.sum_congr rfl (fun d _ => ?_)
    rw [hα d, hβ d, EReal.coe_mul, EReal.coe_sub, EReal.coe_sub, EReal.coe_one]
  have hR : ((((128 : ℝ) : EReal) - ∑ d : Fin 128, a d) - ∑ d : Fin 128, b d) + ∑ d : Fin 128, a d * b d
      = ((128 - ∑ d : Fin 128, α d - ∑ d : Fin 128, β d + ∑ d : Fin 128, α d * β d : ℝ) : EReal) := by
    rw [EReal.coe_add, EReal.coe_sub, EReal.coe_sub, coe_finset_sum, coe_finset_sum, coe_finset_sum]
    simp only [hα, hβ, EReal.coe_mul]
  rw [W_one, W_128, hL, hR, key]

end Cert.SimAttn

end
-- ==== Proof.RefRows.lean ====
/-
  The reference's per-operand stages at the exact reals, entry by entry, head by head: the squared
  row lengths, the unit rows, their logistic images, and the distance exponent.
-/
import proofs.«423659_j82592221102312_3_alg».proof.Proof.Gen.ReferenceIdeal.Read
import proofs.«423659_j82592221102312_3_alg».proof.Proof.Spec
import proofs.«423659_j82592221102312_3_alg».proof.Proof.Algebra

noncomputable section

namespace Cert.ReferenceIdeal.RRows

open Cert.ReferenceIdeal Cert.ReferenceIdeal.Read Cert.SimAttn Idealize.ShloMosaic Idealize.ShloMosaic.ValueIdx

/-! ### Composed indices, by coordinates -/

private theorem idx_v1_ix (b h : Fin 8) (i : Fin 1024) (k : Fin 128) :
    idx_main_v1 (ix3 b h i) k = ix4 b h i k := funext fun a => Fin.ext (by match a with | ⟨0, _⟩ => rfl | ⟨1, _⟩ => rfl | ⟨2, _⟩ => rfl | ⟨3, _⟩ => rfl)

private theorem idx_v3_ix (b h : Fin 8) (i : Fin 1024) (k : Fin 128) :
    idx_main_v3 (ix3 b h i) k = ix4 b h i k := funext fun a => Fin.ext (by match a with | ⟨0, _⟩ => rfl | ⟨1, _⟩ => rfl | ⟨2, _⟩ => rfl | ⟨3, _⟩ => rfl)

private theorem idx_v21_ix (b h : Fin 8) (i : Fin 1024) (d : Fin 128) :
    idx_main_v21 (ix4 b h i d) = ix4 b h i (0 : Fin 1) := funext fun a => Fin.ext (by match a with | ⟨0, _⟩ => rfl | ⟨1, _⟩ => rfl | ⟨2, _⟩ => rfl | ⟨3, _⟩ => rfl)

private theorem idx_v20_ix (b h : Fin 8) (i : Fin 1024) :
    idx_main_v20 (ix4 b h i (0 : Fin 1)) = ix3 b h i := funext fun a => Fin.ext (by match a with | ⟨0, _⟩ => rfl | ⟨1, _⟩ => rfl | ⟨2, _⟩ => rfl)

private theorem idx_v25_ix (b h : Fin 8) (i : Fin 1024) (d : Fin 128) :
    idx_main_v25 (ix4 b h i d) = ix4 b h i (0 : Fin 1) := funext fun a => Fin.ext (by match a with | ⟨0, _⟩ => rfl | ⟨1, _⟩ => rfl | ⟨2, _⟩ => rfl | ⟨3, _⟩ => rfl)

private theorem idx_v24_ix (b h : Fin 8) (i : Fin 1024) :
    idx_main_v24 (ix4 b h i (0 : Fin 1)) = ix3 b h i := funext fun a => Fin.ext (by match a with | ⟨0, _⟩ => rfl | ⟨1, _⟩ => rfl | ⟨2, _⟩ => rfl)

private theorem idx_v7_ix (b h : Fin 8) (i j : Fin 1024) :
    idx_main_v7 (ix4 b h i j) = ix4 b h i (0 : Fin 1) := funext fun a => Fin.ext (by match a with | ⟨0, _⟩ => rfl | ⟨1, _⟩ => rfl | ⟨2, _⟩ => rfl | ⟨3, _⟩ => rfl)

private theorem idx_v5_ix (b h : Fin 8) (i : Fin 1024) :
    idx_main_v5 (ix4 b h i (0 : Fin 1)) = ix3 b h i := funext fun a => Fin.ext (by match a with | ⟨0, _⟩ => rfl | ⟨1, _⟩ => rfl | ⟨2, _⟩ => rfl)

private theorem idx_v8_ix (b h : Fin 8) (i j : Fin 1024) :
    idx_main_v8 (ix4 b h i j) = ix4 b h (0 : Fin 1) j := funext fun a => Fin.ext (by match a with | ⟨0, _⟩ => rfl | ⟨1, _⟩ => rfl | ⟨2, _⟩ => rfl | ⟨3, _⟩ => rfl)

private theorem idx_v6_ix (b h : Fin 8) (j : Fin 1024) :
    idx_main_v6 (ix4 b h (0 : Fin 1) j) = ix3 b h j := funext fun a => Fin.ext (by match a with | ⟨0, _⟩ => rfl | ⟨1, _⟩ => rfl | ⟨2, _⟩ => rfl)

private theorem lidx_v4_ix (b h : Fin 8) (i j : Fin 1024) (k : Fin 128) :
    lidx_main_v4 (ix4 b h i j) k = ix4 b h i k := funext fun a => Fin.ext (by match a with | ⟨0, _⟩ => rfl | ⟨1, _⟩ => rfl | ⟨2, _⟩ => rfl | ⟨3, _⟩ => rfl)

private theorem ridx_v4_ix (b h : Fin 8) (i j : Fin 1024) (k : Fin 128) :
    ridx_main_v4 (ix4 b h i j) k = ix4 b h j k := funext fun a => Fin.ext (by match a with | ⟨0, _⟩ => rfl | ⟨1, _⟩ => rfl | ⟨2, _⟩ => rfl | ⟨3, _⟩ => rfl)

/-! ### The squared row lengths -/

theorem ref_v1 (x0 : (⟨S8x8x1024x128, .f32⟩ : BufTy).Contents (Elt Ideal)) (b h : Fin 8) (i : Fin 1024) :
    val_main_v1 (F := Ideal) x0 (ix3 b h i) = sq (hd x0 b h) i := by
  rw [val_main_v1_apply]
  simp only [val_main_cst_apply, val_main_v0_apply, idx_v1_ix, Ideal.ofBits_def, Ideal.mulf_def]
  refine (congrArg (· + _) W_zero).trans ?_
  rw [zero_add]
  rfl

theorem ref_v3 (x1 : (⟨S8x8x1024x128, .f32⟩ : BufTy).Contents (Elt Ideal)) (b h : Fin 8) (i : Fin 1024) :
    val_main_v3 (F := Ideal) x1 (ix3 b h i) = sq (hd x1 b h) i := by
  rw [val_main_v3_apply]
  simp only [val_main_cst_0_apply, val_main_v2_apply, idx_v3_ix, Ideal.ofBits_def, Ideal.mulf_def]
  refine (congrArg (· + _) W_zero).trans ?_
  rw [zero_add]
  rfl

/-! ### The unit rows -/

theorem ref_v22 (x0 : (⟨S8x8x1024x128, .f32⟩ : BufTy).Contents (Elt Ideal)) (b h : Fin 8) (i : Fin 1024) (d : Fin 128) :
    val_main_v22 (F := Ideal) x0 (ix4 b h i d) = unit (hd x0 b h) i d := by
  rw [val_main_v22_apply, val_main_v21_apply, idx_v21_ix, val_main_v20_apply, idx_v20_ix,
    val_main_v19_apply, ref_v1]
  rfl

theorem ref_v26 (x1 : (⟨S8x8x1024x128, .f32⟩ : BufTy).Contents (Elt Ideal)) (b h : Fin 8) (i : Fin 1024) (d : Fin 128) :
    val_main_v26 (F := Ideal) x1 (ix4 b h i d) = unit (hd x1 b h) i d := by
  rw [val_main_v26_apply, val_main_v25_apply, idx_v25_ix, val_main_v24_apply, idx_v24_ix,
    val_main_v23_apply, ref_v3]
  rfl

/-! ### The logistic images: the reference writes the logistic function as `1 / (1 + exp (-u))` -/

theorem ref_v50 (x0 : (⟨S8x8x1024x128, .f32⟩ : BufTy).Contents (Elt Ideal)) (b h : Fin 8) (i : Fin 1024) (d : Fin 128) :
    val_main_v50 (F := Ideal) x0 (ix4 b h i d) = sg (hd x0 b h) i d := by
  rw [val_main_v50_apply, val_main_v49_apply, val_main_cst_12_apply, val_main_v48_apply,
    val_main_v47_apply, val_main_cst_11_apply, val_main_v46_apply, val_main_v45_apply, ref_v22]
  exact div_one_add_exp_neg (unit (hd x0 b h) i d)

theorem ref_v56 (x1 : (⟨S8x8x1024x128, .f32⟩ : BufTy).Contents (Elt Ideal)) (b h : Fin 8) (i : Fin 1024) (d : Fin 128) :
    val_main_v56 (F := Ideal) x1 (ix4 b h i d) = sg (hd x1 b h) i d := by
  rw [val_main_v56_apply, val_main_v55_apply, val_main_cst_14_apply, val_main_v54_apply,
    val_main_v53_apply, val_main_cst_13_apply, val_main_v52_apply, val_main_v51_apply, ref_v26]
  exact div_one_add_exp_neg (unit (hd x1 b h) i d)

/-! ### The distance exponent -/

/-- The Gram entry: key row `i` against query row `j`. -/
private theorem ref_v4 (x0 x1 : (⟨S8x8x1024x128, .f32⟩ : BufTy).Contents (Elt Ideal)) (b h : Fin 8) (i j : Fin 1024) :
    val_main_v4 (F := Ideal) x0 x1 (ix4 b h i j) = dot (hd x1 b h) (hd x0 b h) i j := by
  rw [val_main_v4_apply]
  simp only [lidx_v4_ix, ridx_v4_ix]
  rfl

/-- The sum of the two squared lengths, key row first. -/
private theorem ref_v9 (x0 x1 : (⟨S8x8x1024x128, .f32⟩ : BufTy).Contents (Elt Ideal)) (b h : Fin 8) (i j : Fin 1024) :
    val_main_v9 (F := Ideal) x0 x1 (ix4 b h i j) = sq (hd x1 b h) i + sq (hd x0 b h) j := by
  rw [val_main_v9_apply, val_main_v7_apply, idx_v7_ix, val_main_v5_apply, idx_v5_ix, ref_v3,
    val_main_v8_apply, idx_v8_ix, val_main_v6_apply, idx_v6_ix, ref_v1]
  rfl

/-- The distance exponent: `x0` is the query array, `x1` the key array. -/
theorem ref_v18 (x0 x1 : (⟨S8x8x1024x128, .f32⟩ : BufTy).Contents (Elt Ideal)) (b h : Fin 8) (i j : Fin 1024) :
    val_main_v18 (F := Ideal) x0 x1 (ix4 b h i j) = se (hd x0 b h) (hd x1 b h) i j := by
  rw [val_main_v18_apply, val_main_v17_apply, val_main_cst_3_apply, val_main_v16_apply,
    val_main_v15_apply, val_main_v14_apply, val_main_v13_apply, val_main_cst_2_apply,
    val_main_v12_apply, val_main_v11_apply, val_main_v10_apply, val_main_cst_1_apply, ref_v9, ref_v4]
  exact congrArg (· * W 0x3D3504F3#32)
    (neg_eq_W_zero_sub (Ideal.sqrt (max ((sq (hd x1 b h) i + sq (hd x0 b h) j)
      - W 0x40000000#32 * dot (hd x1 b h) (hd x0 b h) i j) (W 0x00000000#32))))

end Cert.ReferenceIdeal.RRows

end
-- ==== Proof.RefWeights.lean ====
/-
  The reference's weight stages at the exact reals, entry by entry, head by head: the periodic
  exponent (by the half-angle identity and the exact reciprocal of the word for √128), the two inner
  products of the logistic rows and of their complements, and the unnormalised weight.
-/
import proofs.«423659_j82592221102312_3_alg».proof.Proof.Gen.ReferenceIdeal.Read
import proofs.«423659_j82592221102312_3_alg».proof.Proof.Spec
import proofs.«423659_j82592221102312_3_alg».proof.Proof.Algebra
import proofs.«423659_j82592221102312_3_alg».proof.Proof.RefRows

noncomputable section

namespace Cert.ReferenceIdeal.RWeights

open Cert.ReferenceIdeal Cert.ReferenceIdeal.Read Cert.ReferenceIdeal.RRows Cert.SimAttn Idealize.ShloMosaic Idealize.ShloMosaic.ValueIdx

/-- The left operand of the unit rows' inner product is read on row `i`. -/
private theorem lidx27 (b h : Fin 8) (i j : Fin 1024) (k : Fin 128) :
    lidx_main_v27 (ix4 b h i j) k = ix4 b h i k :=
  funext fun a => Fin.ext (by match a with | ⟨0, _⟩ => rfl | ⟨1, _⟩ => rfl | ⟨2, _⟩ => rfl | ⟨3, _⟩ => rfl)

/-- The right operand of the unit rows' inner product is read on row `j`. -/
private theorem ridx27 (b h : Fin 8) (i j : Fin 1024) (k : Fin 128) :
    ridx_main_v27 (ix4 b h i j) k = ix4 b h j k :=
  funext fun a => Fin.ext (by match a with | ⟨0, _⟩ => rfl | ⟨1, _⟩ => rfl | ⟨2, _⟩ => rfl | ⟨3, _⟩ => rfl)

/-- The left operand of the logistic rows' inner product is read on row `i`. -/
private theorem lidx57 (b h : Fin 8) (i j : Fin 1024) (k : Fin 128) :
    lidx_main_v57 (ix4 b h i j) k = ix4 b h i k :=
  funext fun a => Fin.ext (by match a with | ⟨0, _⟩ => rfl | ⟨1, _⟩ => rfl | ⟨2, _⟩ => rfl | ⟨3, _⟩ => rfl)

/-- The right operand of the logistic rows' inner product is read on row `j`. -/
private theorem ridx57 (b h : Fin 8) (i j : Fin 1024) (k : Fin 128) :
    ridx_main_v57 (ix4 b h i j) k = ix4 b h j k :=
  funext fun a => Fin.ext (by match a with | ⟨0, _⟩ => rfl | ⟨1, _⟩ => rfl | ⟨2, _⟩ => rfl | ⟨3, _⟩ => rfl)

/-- The left operand of the complements' inner product is read on row `i`. -/
private theorem lidx64 (b h : Fin 8) (i j : Fin 1024) (k : Fin 128) :
    lidx_main_v64 (ix4 b h i j) k = ix4 b h i k :=
  funext fun a => Fin.ext (by match a with | ⟨0, _⟩ => rfl | ⟨1, _⟩ => rfl | ⟨2, _⟩ => rfl | ⟨3, _⟩ => rfl)

/-- The right operand of the complements' inner product is read on row `j`. -/
private theorem ridx64 (b h : Fin 8) (i j : Fin 1024) (k : Fin 128) :
    ridx_main_v64 (ix4 b h i j) k = ix4 b h j k :=
  funext fun a => Fin.ext (by match a with | ⟨0, _⟩ => rfl | ⟨1, _⟩ => rfl | ⟨2, _⟩ => rfl | ⟨3, _⟩ => rfl)

/-- The squared lengths of the query side, spread along the columns, are read on row `i`. -/
private theorem idx70_68 (b h : Fin 8) (i j : Fin 1024) :
    idx_main_v68 (idx_main_v70 (ix4 b h i j)) = ix3 b h i :=
  funext fun a => Fin.ext (by match a with | ⟨0, _⟩ => rfl | ⟨1, _⟩ => rfl | ⟨2, _⟩ => rfl)

/-- The squared lengths of the key side, spread along the rows, are read on row `j`. -/
private theorem idx71_69 (b h : Fin 8) (i j : Fin 1024) :
    idx_main_v69 (idx_main_v71 (ix4 b h i j)) = ix3 b h j :=
  funext fun a => Fin.ext (by match a with | ⟨0, _⟩ => rfl | ⟨1, _⟩ => rfl | ⟨2, _⟩ => rfl)

/-- The inner product of the unit rows. -/
private theorem ref_v27 (x0 x1 : (⟨S8x8x1024x128, .f32⟩ : BufTy).Contents (Elt Ideal)) (b h : Fin 8) (i j : Fin 1024) :
    val_main_v27 (F := Ideal) x0 x1 (ix4 b h i j) = dot (unit (hd x0 b h)) (unit (hd x1 b h)) i j := by
  rw [val_main_v27_apply]
  unfold dot
  refine Finset.sum_congr rfl fun k _ => ?_
  rw [lidx27, ridx27, ref_v22, ref_v26]

/-- The scalar constants, spread over the whole array, are their words. -/
private theorem c28 (i : S8x8x1024x1024.Idx) : val_main_v28 (F := Ideal) i = W 0x40000000#32 := by
  rw [val_main_v28_apply, val_main_cst_4_apply, Ideal.ofBits_def]

private theorem c30 (i : S8x8x1024x1024.Idx) : val_main_v30 (F := Ideal) i = W 0x4000002A#32 := by
  rw [val_main_v30_apply, val_main_cst_5_apply, Ideal.ofBits_def]

private theorem c32 (i : S8x8x1024x1024.Idx) : val_main_v32 (F := Ideal) i = W 0x00000000#32 := by
  rw [val_main_v32_apply, val_main_cst_6_apply, Ideal.ofBits_def]

private theorem c35 (i : S8x8x1024x1024.Idx) : val_main_v35 (F := Ideal) i = W 0x40490FDB#32 := by
  rw [val_main_v35_apply, val_main_cst_7_apply, Ideal.ofBits_def]

private theorem c37 (i : S8x8x1024x1024.Idx) : val_main_v37 (F := Ideal) i = W 0x3F800000#32 := by
  rw [val_main_v37_apply, val_main_cst_8_apply, Ideal.ofBits_def]

private theorem c41 (i : S8x8x1024x1024.Idx) : val_main_v41 (F := Ideal) i = W 0xC0000000#32 := by
  rw [val_main_v41_apply, val_main_cst_9_apply, Ideal.ofBits_def]

private theorem c43 (i : S8x8x1024x1024.Idx) : val_main_v43 (F := Ideal) i = W 0x413504F3#32 := by
  rw [val_main_v43_apply, val_main_cst_10_apply, Ideal.ofBits_def]

private theorem c60 (i : S8x8x1024x128.Idx) : val_main_v60 (F := Ideal) i = W 0x3F800000#32 := by
  rw [val_main_v60_apply, val_main_cst_15_apply, Ideal.ofBits_def]

private theorem c62 (i : S8x8x1024x128.Idx) : val_main_v62 (F := Ideal) i = W 0x3F800000#32 := by
  rw [val_main_v62_apply, val_main_cst_16_apply, Ideal.ofBits_def]

private theorem c73 (i : S8x8x1024x1024.Idx) : val_main_v73 (F := Ideal) i = W 0x3D3504F3#32 := by
  rw [val_main_v73_apply, val_main_cst_17_apply, Ideal.ofBits_def]

/-- The angle fed to the sine: the word π̃ times the chord length of the unit rows. -/
private theorem ref_v36 (x0 x1 : (⟨S8x8x1024x128, .f32⟩ : BufTy).Contents (Elt Ideal)) (b h : Fin 8) (i j : Fin 1024) :
    val_main_v36 (F := Ideal) x0 x1 (ix4 b h i j) = presine (hd x0 b h) (hd x1 b h) i j := by
  rw [val_main_v36_apply, val_main_v34_apply, val_main_v33_apply, val_main_v31_apply, val_main_v29_apply,
    ref_v27, c28, c30, c32, c35]
  simp only [Ideal.mulf_def, Ideal.subf_def, Ideal.maximumf_def, Ideal.hostUnary_sqrt_def]
  unfold presine
  exact rfl

theorem ref_v44 (x0 x1 : (⟨S8x8x1024x128, .f32⟩ : BufTy).Contents (Elt Ideal)) (b h : Fin 8) (i j : Fin 1024) :
    val_main_v44 (F := Ideal) x0 x1 (ix4 b h i j) = periodic (hd x0 b h) (hd x1 b h) i j := by
  rw [val_main_v44_apply, val_main_v42_apply, val_main_v40_apply, val_main_v39_apply, val_main_v38_apply,
    ref_v36, c37, c41, c43]
  simp only [Ideal.mulf_def, Ideal.hostDivf_def, Ideal.hostUnary_sin_def]
  unfold periodic
  exact half_angle (presine (hd x0 b h) (hd x1 b h) i j)

theorem ref_v57 (x0 x1 : (⟨S8x8x1024x128, .f32⟩ : BufTy).Contents (Elt Ideal)) (b h : Fin 8) (i j : Fin 1024) :
    val_main_v57 (F := Ideal) x0 x1 (ix4 b h i j) = t1 (hd x0 b h) (hd x1 b h) i j := by
  rw [val_main_v57_apply]
  unfold t1 dot
  refine Finset.sum_congr rfl fun k _ => ?_
  rw [lidx57, ridx57, ref_v50, ref_v56]

theorem ref_v64 (x0 x1 : (⟨S8x8x1024x128, .f32⟩ : BufTy).Contents (Elt Ideal)) (b h : Fin 8) (i j : Fin 1024) :
    val_main_v64 (F := Ideal) x0 x1 (ix4 b h i j) = t2 (hd x0 b h) (hd x1 b h) i j := by
  have hk : ∀ k : Fin 128,
      val_main_v61 (F := Ideal) x0 (lidx_main_v64 (ix4 b h i j) k) * val_main_v63 (F := Ideal) x1 (ridx_main_v64 (ix4 b h i j) k)
        = (W 0x3F800000#32 - sg (hd x0 b h) i k) * (W 0x3F800000#32 - sg (hd x1 b h) j k) := by
    intro k
    rewrite [lidx64, ridx64, val_main_v61_apply, val_main_v63_apply, c60, c62, ref_v50, ref_v56]
    exact rfl
  rw [val_main_v64_apply]
  refine (Finset.sum_congr rfl fun k _ => hk k).trans ?_
  refine (compl_dot (fun d => sg (hd x0 b h) i d) (fun d => sg (hd x1 b h) j d)
    (fun d => logistic_real _) (fun d => logistic_real _)).trans ?_
  unfold t2 t1 dot
  exact rfl

theorem ref_v75 (x0 x1 : (⟨S8x8x1024x128, .f32⟩ : BufTy).Contents (Elt Ideal)) (b h : Fin 8) (i j : Fin 1024) :
    val_main_v75 (F := Ideal) x0 x1 (ix4 b h i j) = pre (hd x0 b h) (hd x1 b h) i j := by
  rw [val_main_v75_apply, val_main_v67_apply, val_main_v59_apply, val_main_v66_apply, val_main_v58_apply,
    val_main_v65_apply, val_main_v74_apply, val_main_v72_apply, val_main_v70_apply, val_main_v68_apply,
    val_main_v71_apply, val_main_v69_apply, idx70_68, idx71_69, ref_v1, ref_v3, ref_v18, ref_v44, ref_v57,
    ref_v64, c73]
  simp only [Ideal.addf_def, Ideal.mulf_def, Ideal.hostUnary_exp_def]
  unfold pre
  exact rfl

end Cert.ReferenceIdeal.RWeights

end
-- ==== Proof.RefHead.lean ====
/-
  The reference's two results at the exact reals, entry by entry, head by head: the normalised
  weights and the output rows.
-/
import proofs.«423659_j82592221102312_3_alg».proof.Proof.Gen.ReferenceIdeal.Read
import proofs.«423659_j82592221102312_3_alg».proof.Proof.Spec
import proofs.«423659_j82592221102312_3_alg».proof.Proof.Algebra
import proofs.«423659_j82592221102312_3_alg».proof.Proof.RefWeights

noncomputable section

namespace Cert.ReferenceIdeal.RHead

open Cert.ReferenceIdeal Cert.ReferenceIdeal.Read Cert.ReferenceIdeal.RWeights Cert.SimAttn Idealize.ShloMosaic Idealize.ShloMosaic.ValueIdx

/-- The row reduction's index at position `k` of row `(b, h, i)`. -/
private theorem idx77 (b h : Fin 8) (i k : Fin 1024) :
    idx_main_v77 (ix3 b h i) k = ix4 b h i k :=
  funext fun a => Fin.ext (by match a with | ⟨0, _⟩ => rfl | ⟨1, _⟩ => rfl | ⟨2, _⟩ => rfl | ⟨3, _⟩ => rfl)

/-- The kept-axis broadcast reads row `(b, h, i)`. -/
private theorem idx78 (b h : Fin 8) (i : Fin 1024) :
    idx_main_v78 (ix4 b h i (0 : Fin 1)) = ix3 b h i :=
  funext fun a => Fin.ext (by match a with | ⟨0, _⟩ => rfl | ⟨1, _⟩ => rfl | ⟨2, _⟩ => rfl)

/-- The broadcast along the last axis reads the single column. -/
private theorem idx82 (b h : Fin 8) (i j : Fin 1024) :
    idx_main_v82 (ix4 b h i j) = ix4 b h i (0 : Fin 1) :=
  funext fun a => Fin.ext (by match a with | ⟨0, _⟩ => rfl | ⟨1, _⟩ => rfl | ⟨2, _⟩ => rfl | ⟨3, _⟩ => rfl)

/-- The contraction's left index: weight `(i, k)` of the head. -/
private theorem lidx84 (b h : Fin 8) (i k : Fin 1024) (d : Fin 128) :
    lidx_main_v84 (ix4 b h i d) k = ix4 b h i k :=
  funext fun a => Fin.ext (by match a with | ⟨0, _⟩ => rfl | ⟨1, _⟩ => rfl | ⟨2, _⟩ => rfl | ⟨3, _⟩ => rfl)

/-- The contraction's right index: entry `(k, d)` of the head's value rows. -/
private theorem ridx84 (b h : Fin 8) (i k : Fin 1024) (d : Fin 128) :
    ridx_main_v84 (ix4 b h i d) k = ix4 b h k d :=
  funext fun a => Fin.ext (by match a with | ⟨0, _⟩ => rfl | ⟨1, _⟩ => rfl | ⟨2, _⟩ => rfl | ⟨3, _⟩ => rfl)

theorem ref_v77 (x0 x1 : (⟨S8x8x1024x128, .f32⟩ : BufTy).Contents (Elt Ideal)) (b h : Fin 8) (i : Fin 1024) :
    val_main_v77 (F := Ideal) x0 x1 (ix3 b h i) = ssq (hd x0 b h) (hd x1 b h) i := by
  rw [val_main_v77_apply, val_main_cst_18_apply, Ideal.ofBits_def]
  refine (congrArg (· + _) W_zero).trans ?_
  rw [zero_add]
  unfold ssq
  refine Finset.sum_congr rfl fun k _ => ?_
  rw [idx77, val_main_v76_apply, Ideal.mulf_def, ref_v75]

/-- The row's divisor, read at the single column of row `(b, h, i)`. -/
private theorem ref_v81 (x0 x1 : (⟨S8x8x1024x128, .f32⟩ : BufTy).Contents (Elt Ideal)) (b h : Fin 8) (i : Fin 1024) :
    val_main_v81 (F := Ideal) x0 x1 (ix4 b h i (0 : Fin 1)) = nrm (hd x0 b h) (hd x1 b h) i := by
  rw [val_main_v81_apply, val_main_v79_apply, val_main_v78_apply, val_main_v80_apply,
    val_main_cst_19_apply, idx78, ref_v77, Ideal.maximumf_def, Ideal.hostUnary_sqrt_def, Ideal.ofBits_def]
  rfl

theorem ref_v83 (x0 x1 : (⟨S8x8x1024x128, .f32⟩ : BufTy).Contents (Elt Ideal)) (b h : Fin 8) (i j : Fin 1024) :
    val_main_v83 (F := Ideal) x0 x1 (ix4 b h i j) = attn (hd x0 b h) (hd x1 b h) i j := by
  rw [val_main_v83_apply, val_main_v82_apply, idx82, ref_v81, ref_v75, Ideal.hostDivf_def]
  rfl

theorem ref_v84 (x0 x1 x2 : (⟨S8x8x1024x128, .f32⟩ : BufTy).Contents (Elt Ideal)) (b h : Fin 8) (i : Fin 1024) (d : Fin 128) :
    val_main_v84 (F := Ideal) x0 x1 x2 (ix4 b h i d) = out (hd x0 b h) (hd x1 b h) (hd x2 b h) i d := by
  rw [val_main_v84_apply]
  unfold out
  refine Finset.sum_congr rfl fun k _ => ?_
  rw [lidx84, ridx84, ref_v83]
  rfl

end Cert.ReferenceIdeal.RHead

end
-- ==== Proof.lean ====
/-
  The certificate of the similarity-attention layer: the kernel — one grid point per head, 64 heads —
  against the plain array program, over the extended reals.

  Both programs compute, for every head, the normalised weights of `Spec.lean` and their weighted sum
  of the value rows.  They differ in three places, each an identity of the extended reals
  (`Algebra.lean`): the periodic exponent, written by the kernel as (cos 2x - 1) times its folded
  reciprocal of √128 — named here as the exact reciprocal 1048576/11863283 of the word the array
  program divides by — and by the array program as -2 sin² x over that word; the inner product of the
  complements 1 - σ, which the kernel expands into 128 - Σσ(q̂) - Σσ(k̂) + σ(q̂)·σ(k̂); and the
  logistic function, one operation in the kernel and the quotient 1/(1 + e^(-x)) in the array program.

  The kernel's frames are the generated ones; the array program's frame is its run with the results
  dropped; the one rewrite of the idealization is the named reciprocal.
-/
import proofs.«423659_j82592221102312_3_alg».proof.Defs
import proofs.«423659_j82592221102312_3_alg».proof.Proof.Gen.Kernel
import proofs.«423659_j82592221102312_3_alg».proof.Proof.Gen.Kernel.Skeleton
import proofs.«423659_j82592221102312_3_alg».proof.Proof.Gen.Kernel.Launch
import proofs.«423659_j82592221102312_3_alg».proof.Proof.Gen.Kernel.Points
import proofs.«423659_j82592221102312_3_alg».proof.Proof.Gen.Kernel.Frame
import proofs.«423659_j82592221102312_3_alg».proof.Proof.Gen.KernelIdeal
import proofs.«423659_j82592221102312_3_alg».proof.Proof.Gen.KernelIdeal.Skeleton
import proofs.«423659_j82592221102312_3_alg».proof.Proof.Gen.KernelIdeal.Launch
import proofs.«423659_j82592221102312_3_alg».proof.Proof.Gen.KernelIdeal.Points
import proofs.«423659_j82592221102312_3_alg».proof.Proof.Gen.KernelIdeal.Frame
import proofs.«423659_j82592221102312_3_alg».proof.Proof.Gen.ReferenceIdeal
import proofs.«423659_j82592221102312_3_alg».proof.Proof.Gen.Pre_finite_inputs
import proofs.«423659_j82592221102312_3_alg».proof.Proof.Gen.ReferenceIdeal.Run
import proofs.«423659_j82592221102312_3_alg».proof.Proof.Gen.ReferenceIdeal.Read
import proofs.«423659_j82592221102312_3_alg».proof.Proof.KernelRun
import proofs.«423659_j82592221102312_3_alg».proof.Proof.RefHead
import Idealize.ShloMosaic.Adequacy
import Idealize.ShloMosaic.Init

noncomputable section

namespace Cert.Proof

open Idealize.ShloMosaic Idealize.SL.Sem Idealize.ShloMosaic.ValueIdx Cert.SimAttn

theorem frame_k : Cert.frame_Kernel := fun m ρ _ => Cert.Kernel.Gen.frame m ρ

theorem frame_ki : Cert.frame_KernelIdeal := fun m ρ _ => Cert.KernelIdeal.Gen.frame m ρ

/-- The array program's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite: the folded reciprocal of √128 read as the exact reciprocal of the word for √128. -/
theorem preserves : Cert.preserves_Kernel_KernelIdeal :=
  IdealRules.named_const.statement Cert.KernelIdeal.κ "inv_sqrt_d" .f32 0x3DB504F3#32 ((1048576 / 11863283 : ℝ) : EReal) rfl

/-- The array program's weights result is the weights head by head. -/
theorem ref_attn (a0 a1 : Cert.ReferenceIdeal.S8x8x1024x128.Idx → EReal) :
    Cert.ReferenceIdeal.Read.val_main_v83 (F := Ideal) a0 a1 = Cert.KernelIdeal.KRun.attnArr a0 a1 := by
  funext y
  obtain ⟨b, h, i, j, rfl⟩ : ∃ (b h : Fin 8) (i j : Fin 1024), y = ix4 b h i j := ⟨y 0, y 1, y 2, y 3, eq_ix4 y⟩
  exact Cert.ReferenceIdeal.RHead.ref_v83 a0 a1 b h i j

/-- The array program's output result is the outputs head by head. -/
theorem ref_out (a0 a1 a2 : Cert.ReferenceIdeal.S8x8x1024x128.Idx → EReal) :
    Cert.ReferenceIdeal.Read.val_main_v84 (F := Ideal) a0 a1 a2 = Cert.KernelIdeal.KRun.outArr a0 a1 a2 := by
  funext y
  obtain ⟨b, h, i, d, rfl⟩ : ∃ (b h : Fin 8) (i : Fin 1024) (d : Fin 128), y = ix4 b h i d := ⟨y 0, y 1, y 2, y 3, eq_ix4 y⟩
  exact Cert.ReferenceIdeal.RHead.ref_v84 a0 a1 a2 b h i d

/-- From memories that agree on the three operands both programs end at the same two arrays. -/
theorem algebraic : Cert.algebraic_KernelIdeal_ReferenceIdeal := by
  intro m ρ m' ρ' _ hagree
  refine ⟨fun c => Cert.KernelIdeal.KRun.outArr (m ((c.tc : Thread _ _).loc Cert.KernelIdeal.main_arg0))
      (m ((c.tc : Thread _ _).loc Cert.KernelIdeal.main_arg1)) (m ((c.tc : Thread _ _).loc Cert.KernelIdeal.main_arg2)),
    fun c => Cert.KernelIdeal.KRun.attnArr (m ((c.tc : Thread _ _).loc Cert.KernelIdeal.main_arg0))
      (m ((c.tc : Thread _ _).loc Cert.KernelIdeal.main_arg1)),
    Cert.KernelIdeal.KRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v84_eq, (hagree c).1, (hagree c).2.1, (hagree c).2.2]
    exact ref_out _ _ _
  · rw [Cert.ReferenceIdeal.Read.val_main_v83_eq, (hagree c).1, (hagree c).2.1]
    exact ref_attn _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
